-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S32x128 : Shape := ⟨2, ![32, 128]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  main_v18

def fn {F : FTy → Type} [FloatOps F] (main_arg0 : FVec F S100000x128 .f32) (main_arg1 : IVec S2x625000 32) (main_arg2 : FVec F S32x128 .f32) (main_arg3 : FVec F S32 .f32) (main_arg4 : FVec F S32x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x128 .f32 := Host.absf main_arg4
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_v13 main_v16
-- ==== Kernel.lean ====
abbrev S100000x128 : Shape := ⟨2, ![100000, 128]⟩
abbrev S2x625000 : Shape := ⟨2, ![2, 625000]⟩
abbrev S32x128 : Shape := ⟨2, ![32, 128]⟩
abbrev S32 : Shape := ⟨1, ![32]⟩
abbrev S1x625000 : Shape := ⟨2, ![1, 625000]⟩
abbrev S625000 : Shape := ⟨1, ![625000]⟩
abbrev S128x32 : Shape := ⟨2, ![128, 32]⟩
abbrev S100000x32 : Shape := ⟨2, ![100000, 32]⟩
abbrev S2000x128 : Shape := ⟨2, ![2000, 128]⟩
abbrev S2000x32 : Shape := ⟨2, ![2000, 32]⟩
abbrev S_ : Shape := ⟨0, ![]⟩
abbrev S625000x1 : Shape := ⟨2, ![625000, 1]⟩
abbrev S625000x32 : Shape := ⟨2, ![625000, 32]⟩
abbrev S100000 : Shape := ⟨1, ![100000]⟩
abbrev S100000x1 : Shape := ⟨2, ![100000, 1]⟩
abbrev S1x32 : Shape := ⟨2, ![1, 32]⟩
abbrev S2000x1 : Shape := ⟨2, ![2000, 1]⟩
abbrev S2000 : Shape := ⟨1, ![2000]⟩

abbrev nBuf : Space → Nat
  | .hbm => 35
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S32x128, .f32⟩
  | .hbm, ⟨3, _⟩ => ⟨S32, .f32⟩
  | .hbm, ⟨4, _⟩ => ⟨S32x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S128x32, .f32⟩
  | .hbm, ⟨10, _⟩ => ⟨S128x32, .f32⟩
  | .hbm, ⟨11, _⟩ => ⟨S100000x32, .f32⟩
  | .hbm, ⟨12, _⟩ => ⟨S100000x32, .f32⟩
  | .hbm, ⟨13, _⟩ => ⟨S_, .i32⟩
  | .hbm, ⟨14, _⟩ => ⟨S625000, .i32⟩
  | .hbm, ⟨15, _⟩ => ⟨S625000, .i1⟩
  | .hbm, ⟨16, _⟩ => ⟨S_, .i32⟩
  | .hbm, ⟨17, _⟩ => ⟨S625000, .i32⟩
  | .hbm, ⟨18, _⟩ => ⟨S625000, .i32⟩
  | .hbm, ⟨19, _⟩ => ⟨S625000, .i32⟩
  | .hbm, ⟨20, _⟩ => ⟨S625000x1, .i32⟩
  | .hbm, ⟨21, _⟩ => ⟨S625000x32, .f32⟩
  | .hbm, ⟨22, _⟩ => ⟨S_, .f32⟩
  | .hbm, ⟨23, _⟩ => ⟨S100000x32, .f32⟩
  | .hbm, ⟨24, _⟩ => ⟨S625000x1, .i32⟩
  | .hbm, ⟨25, _⟩ => ⟨S100000x32, .f32⟩
  | .hbm, ⟨26, _⟩ => ⟨S_, .f32⟩
  | .hbm, ⟨27, _⟩ => ⟨S625000, .f32⟩
  | .hbm, ⟨28, _⟩ => ⟨S_, .f32⟩
  | .hbm, ⟨29, _⟩ => ⟨S100000, .f32⟩
  | .hbm, ⟨30, _⟩ => ⟨S625000x1, .i32⟩
  | .hbm, ⟨31, _⟩ => ⟨S100000, .f32⟩
  | .hbm, ⟨32, _⟩ => ⟨S100000x1, .f32⟩
  | .hbm, ⟨33, _⟩ => ⟨S1x32, .f32⟩
  | .hbm, ⟨34, _⟩ => ⟨S100000x32, .f32⟩
  | .local _ .vmem, ⟨0, _⟩ => ⟨S2000x128, .f32⟩
  | .local _ .vmem, ⟨1, _⟩ => ⟨S2000x128, .f32⟩
  | .local _ .vmem, ⟨2, _⟩ => ⟨S128x32, .f32⟩
  | .local _ .vmem, ⟨3, _⟩ => ⟨S128x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x1, .f32⟩
  | .local _ .vmem, ⟨11, _⟩ => ⟨S2000x1, .f32⟩
  | .local _ .vmem, ⟨12, _⟩ => ⟨S2000x32, .f32⟩
  | .local _ .vmem, ⟨13, _⟩ => ⟨S2000x32, .f32⟩
  | .local _ .vmem, ⟨14, _⟩ => ⟨S1x32, .f32⟩
  | .local _ .vmem, ⟨15, _⟩ => ⟨S2000x32, .f32⟩
  | .local _ .vmem, ⟨16, _⟩ => ⟨S2000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  transposes_S32x128_S128x32_1_0 : S32x128.Transposes [1, 0] S128x32
  inb_S2000x128_S2000x128_0_0 : ∀ a, (![0, 0] : Fin 2 → Nat) a + S2000x128.size a ≤ S2000x128.size a
  h_S2000x128 : 0 < S2000x128.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S2000x32_S2000x32_0_0 : ∀ a, (![0, 0] : Fin 2 → Nat) a + S2000x32.size a ≤ S2000x32.size a
  h_S2000x32 : 0 < S2000x32.numel
  bcast_S_S625000 : S_.BroadcastsInDim S625000 (![] : Fin 0 → Fin S625000.rank)
  bcast_S625000_S625000x1_0 : S625000.BroadcastsInDim S625000x1 (![0] : Fin 1 → Fin S625000x1.rank)
  bcast_S_S100000x32 : S_.BroadcastsInDim S100000x32 (![] : Fin 0 → Fin S100000x32.rank)
  bcast_S_S100000 : S_.BroadcastsInDim S100000 (![] : Fin 0 → Fin S100000.rank)
  shapeCasts_S100000_S100000x1 : S100000.ShapeCasts S100000x1
  shapeCasts_S32_S1x32 : S32.ShapeCasts S1x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x32_S2000x32 : S2000x32.ShapeCasts S2000x32
  broadcasts_S2000x1_S2000x32 : S2000x1.Broadcasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  reduces_S2000x32_S2000 : S2000x32.Reduces [1] S2000
  shapeCasts_S2000_S2000x1 : S2000.ShapeCasts S2000x1
  dot_S2000x128_S128x32_S2000x32_1_0_0_1_n_n_wf : DotDims.WF S2000x128 S128x32 S2000x32 [1] [0] [0] [1] [] []
  gather_S100000x32_S625000x1_S625000x32_1_0_n_n_0_1_132_wf : GatherDims.WF S100000x32 S625000x1 S625000x32 [1] [0] [] [0] [] 1 ![1, 32]
  scatter_S100000x32_S625000x1_S625000x32_1_0_0_1_wf : ScatterDims.WF S100000x32 S625000x1 S625000x32 [1] [0] [0] 1
  scatter_S100000_S625000x1_S625000_n_0_0_1_wf : ScatterDims.WF S100000 S625000x1 S625000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S100000x32.size a
  hwx0_4 : ∀ i : grid0.Coords, EltTy.bits .f32 = 32 ∨ (Rect.block (s := S100000x32) S2000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x32.size a ≤ S100000x32.size a
  hwx1_2 : ∀ i : grid1.Coords, EltTy.bits .f32 = 32 ∨ (Rect.block (s := S100000x32) S2000x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x32.size a ≤ S100000x32.size a
  hwx1_4 : ∀ i : grid1.Coords, EltTy.bits .f32 = 32 ∨ (Rect.block (s := S100000x32) S2000x32.size (cc1_transform_4 i) (hinb1_4 i)).WholeWords (EltTy.packing .f32)

variable [Facts₀]

def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S100000x32_S625000x1_S625000x32_1_0_n_n_0_1_132 : GatherDims S100000x32 S625000x1 S625000x32 where
  offsetDims := [1]
  collapsedSliceDims := [0]
  operandBatchingDims := []
  startIndicesBatchingDims := []
  startIndexMap := [0]
  indexVectorDim := 1
  sliceSizes := ![1, 32]
  wf := gather_S100000x32_S625000x1_S625000x32_1_0_n_n_0_1_132_wf
def scatter_S100000x32_S625000x1_S625000x32_1_0_0_1 : ScatterDims S100000x32 S625000x1 S625000x32 where
  updateWindowDims := [1]
  insertedWindowDims := [0]
  scatterDimsToOperandDims := [0]
  indexVectorDim := 1
  wf := scatter_S100000x32_S625000x1_S625000x32_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6_0) S2000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_1) S2000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v16) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_1) S2000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S2000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S32x128 : Shape := ⟨2, ![32, 128]⟩
abbrev S32 : Shape := ⟨1, ![32]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S128x32 : Shape := ⟨2, ![128, 32]⟩
abbrev S100000x32 : Shape := ⟨2, ![100000, 32]⟩
abbrev S1x32 : Shape := ⟨2, ![1, 32]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S32x128, .f32⟩
  | .hbm, ⟨3, _⟩ => ⟨S32, .f32⟩
  | .hbm, ⟨4, _⟩ => ⟨S32x128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S100000x128, .f32⟩
  | .hbm, ⟨20, _⟩ => ⟨S625000x1, .i32⟩
  | .hbm, ⟨21, _⟩ => ⟨S100000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S100000, .f32⟩
  | .hbm, ⟨26, _⟩ => ⟨S625000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x32, .f32⟩
  | .hbm, ⟨35, _⟩ => ⟨S100000x32, .f32⟩
  | .hbm, ⟨36, _⟩ => ⟨S1x32, .f32⟩
  | .hbm, ⟨37, _⟩ => ⟨S100000x32, .f32⟩
  | .hbm, ⟨38, _⟩ => ⟨S100000x32, .f32⟩
  | .hbm, ⟨39, _⟩ => ⟨S128x32, .f32⟩
  | .hbm, ⟨40, _⟩ => ⟨S100000x32, .f32⟩
  | .hbm, ⟨41, _⟩ => ⟨S100000x32, .f32⟩
  | .hbm, ⟨42, _⟩ => ⟨S_, .f32⟩
  | .hbm, ⟨43, _⟩ => ⟨S100000x32, .f32⟩
  | .hbm, ⟨44, _⟩ => ⟨S100000x32, .f32⟩
  | .hbm, ⟨45, _⟩ => ⟨S_, .f32⟩
  | .hbm, ⟨46, _⟩ => ⟨S100000, .f32⟩
  | .hbm, ⟨47, _⟩ => ⟨S_, .f32⟩
  | .hbm, ⟨48, _⟩ => ⟨S100000, .f32⟩
  | .hbm, ⟨49, _⟩ => ⟨S100000, .f32⟩
  | .hbm, ⟨50, _⟩ => ⟨S100000x1, .f32⟩
  | .hbm, ⟨51, _⟩ => ⟨S100000x32, .f32⟩
  | .hbm, ⟨52, _⟩ => ⟨S100000x32, .f32⟩
  | .hbm, ⟨53, _⟩ => ⟨S100000x32, .f32⟩
  | .hbm, ⟨54, _⟩ => ⟨S_, .f32⟩
  | .hbm, ⟨55, _⟩ => ⟨S100000, .f32⟩
  | .hbm, ⟨56, _⟩ => ⟨S100000x1, .f32⟩
  | .hbm, ⟨57, _⟩ => ⟨S100000x1, .f32⟩
  | .hbm, ⟨58, _⟩ => ⟨S100000x32, .f32⟩
  | .hbm, ⟨59, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_call0_cst : Ref sig .tc := ⟨.hbm, 42, rfl⟩
abbrev main_call0_v0 : Ref sig .tc := ⟨.hbm, 43, rfl⟩
abbrev main_v31 : Ref sig .tc := ⟨.hbm, 44, rfl⟩
abbrev main_call1_cst : Ref sig .tc := ⟨.hbm, 45, rfl⟩
abbrev main_call1_v0 : Ref sig .tc := ⟨.hbm, 46, rfl⟩
abbrev main_call1_cst_0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_v6 : Ref sig .tc := ⟨.hbm, 53, rfl⟩
abbrev main_call1_cst_1 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_v32 : Ref sig .tc := ⟨.hbm, 59, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S32x128_S128x32_1_0 : S32x128.Transposes [1, 0] S128x32
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  reducesTo_S100000x32_S100000_d1 : S100000x32.ReducesTo [1] S100000
  h_S_ : 0 < S_.numel
  bcast_S100000x1_S100000x32_0_1 : S100000x1.BroadcastsInDim S100000x32 (![0, 1] : Fin 2 → Fin S100000x32.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x32_S100000x32_1_0_0_1_n_n_wf : DotDims.WF S100000x128 S128x32 S100000x32 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.Spec.lean ====
/-
  The mathematics of both programs, with no program in sight.

  A graph layer over 100000 nodes with 128 features and 32 classes, and 625000 directed edges given as two rows of
  index words (row 0 the sources, row 1 the destinations). For node `n` let `A n` be the edges whose destination word,
  read signed, is `n`; for an edge `e` let `src e` be its source word wrapped once when negative and then clamped to
  the node range. The pre-activation of node `n` and class `c` is

      mean over e ∈ A n of (x (src e) · wl c)  +  b c  +  x n · wr c,

  the mean's divisor being `max (number of edges in A n) 1`. One program projects first and aggregates the 32 projected
  numbers (`preK`); the other aggregates the 128 features, divides, and projects afterwards (`preR`). Over the reals
  the two are one number, by linearity of the dot product and of the division by a nonzero real; over the extended
  reals that needs every feature and weight to be a real (`preR_eq_preK`). The layer's output is `tail`: the
  rectified row minus its maximum, minus the logarithm of the sum of the exponentials of those differences.
-/
import Idealize.ShloMosaic.PureOps.Ideal
import Idealize.ShloMosaic.Lib.ValueIdx

noncomputable section

open scoped BigOperators

namespace Cert.MeanAgg

open Idealize.ShloMosaic Idealize.ShloMosaic.ValueIdx

/-- Rectify a row of 32 numbers, subtract its maximum, and subtract the logarithm of the sum of the exponentials
    of the differences: the row's log-softmax after the rectifier. -/
def tail (h : Fin 32 → EReal) (c : Fin 32) : EReal :=
  (max (h c) 0 - (Finset.univ : Finset (Fin 32)).fold max ⊥ (fun c' => max (h c') 0))
    - Ideal.log (∑ c' : Fin 32, Ideal.exp (max (h c') 0 - (Finset.univ : Finset (Fin 32)).fold max ⊥ (fun c'' => max (h c'') 0)))

/-- The coercion of the reals into the extended reals commutes with finite sums. -/
theorem coe_finset_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The clamped count of a finite set — the sum of one 1 per element, raised to at least 1 — is the coercion of the
    real `max (card s) 1`: a sum of `card s` ones is `card s` times the real 1, and the coercion is monotone, so it
    commutes with `max`. -/
theorem clampedCount_eq {E : Type} (s : Finset E) :
    max (∑ _e ∈ s, (1 : EReal)) 1 = ((max (s.card : ℝ) 1 : ℝ) : EReal) := by
  rw [Finset.sum_const, ← EReal.coe_one, ← EReal.coe_nsmul, nsmul_eq_mul, mul_one,
    EReal.coe_strictMono.monotone.map_max]

section Pre

variable {N E K C : Type} [Fintype K] [DecidableEq E]

/-- Project each source row onto class `c` first, add the projections over the edges landing on `n`, divide by the
    clamped in-degree; then the bias and the node's own projection. -/
def preK (x : N → K → EReal) (wl wr : C → K → EReal) (b : C → EReal) (src : E → N) (A : N → Finset E) (n : N) (c : C) : EReal :=
  Ideal.div (∑ e ∈ A n, ∑ k : K, x (src e) k * wl c k) (max (∑ _e ∈ A n, (1 : EReal)) 1) + b c + ∑ k : K, x n k * wr c k

/-- Add the source rows over the edges landing on `n` feature by feature, divide each feature by the clamped
    in-degree, and project the mean onto class `c`; then the bias and the node's own projection. -/
def preR (x : N → K → EReal) (wl wr : C → K → EReal) (b : C → EReal) (src : E → N) (A : N → Finset E) (n : N) (c : C) : EReal :=
  (∑ k : K, Ideal.div (∑ e ∈ A n, x (src e) k) (max (∑ _e ∈ A n, (1 : EReal)) 1) * wl c k) + b c + ∑ k : K, x n k * wr c k

/-- The aggregated parts of the two pre-activations agree where features and weights are real. The divisor is a real
    `d ≥ 1`, so each division is the product with the real `1 / d`; every term is then the coercion of a real, and in
    the reals `∑ k, (∑ e, x e k) * (1 / d) * w k = (∑ e, ∑ k, x e k * w k) * (1 / d)` by exchanging the two finite sums
    and pulling the constant factors out. The algebra is done in the reals because the extended reals do not
    distribute at the infinities. -/
theorem mean_proj_comm (x : N → K → EReal) (wl : C → K → EReal) (src : E → N) (A : N → Finset E)
    (hx : ∀ n k, ∃ r : ℝ, x n k = (r : EReal)) (hwl : ∀ c k, ∃ r : ℝ, wl c k = (r : EReal)) (n : N) (c : C) :
    (∑ k : K, Ideal.div (∑ e ∈ A n, x (src e) k) (max (∑ _e ∈ A n, (1 : EReal)) 1) * wl c k)
      = Ideal.div (∑ e ∈ A n, ∑ k : K, x (src e) k * wl c k) (max (∑ _e ∈ A n, (1 : EReal)) 1) := by
  choose xr hxr using hx
  choose w hw using hwl
  have hd : max ((A n).card : ℝ) 1 ≠ 0 := ne_of_gt (lt_of_lt_of_le one_pos (le_max_right _ _))
  rw [clampedCount_eq]
  simp only [Ideal.div_coe hd, hxr, hw]
  simp only [← coe_finset_sum, ← EReal.coe_mul]
  rw [EReal.coe_eq_coe_iff, Finset.sum_comm, Finset.sum_mul]
  refine Finset.sum_congr rfl fun k _ => ?_
  rw [← Finset.sum_mul]
  ring

/-- Where every feature and every weight of the aggregating projection is a real number, aggregating the features and
    projecting the mean is projecting first and taking the mean of the projections. -/
theorem preR_eq_preK (x : N → K → EReal) (wl wr : C → K → EReal) (b : C → EReal) (src : E → N) (A : N → Finset E)
    (hx : ∀ n k, ∃ r : ℝ, x n k = (r : EReal)) (hwl : ∀ c k, ∃ r : ℝ, wl c k = (r : EReal)) (n : N) (c : C) :
    preR x wl wr b src A n c = preK x wl wr b src A n c := by
  unfold preR preK
  rw [mean_proj_comm x wl src A hx hwl n c]

end Pre

/-- Edge `e`'s source word: row 0 of the edge table, with 100000 added when the word is negative. -/
def srcWord (ei : IVec ⟨2, ![2, 625000]⟩ 32) (e : Fin 625000) : BitVec 32 :=
  Scalar.select (IntOp.cmpi .slt (ei (ix2 0 e)) 0#32) (IntOp.addi (ei (ix2 0 e)) 100000#32) (ei (ix2 0 e))

/-- Edge `e`'s source node: its source word read signed and clamped to the node range. -/
def srcRow (ei : IVec ⟨2, ![2, 625000]⟩ 32) (e : Fin 625000) : Fin 100000 :=
  ⟨min (srcWord ei e).toInt.toNat 99999, by omega⟩

/-- The edges landing on node `n`: those whose destination word (row 1 of the edge table), read signed, is `n`. -/
def lands (ei : IVec ⟨2, ![2, 625000]⟩ 32) (n : Fin 100000) : Finset (Fin 625000) :=
  Finset.univ.filter fun e => (ei (ix2 1 e)).toInt = (n.val : Int)

/-- The word of the float 1.0 denotes the real 1. -/
theorem ofBits_one_f32 : Ideal.ofBits .f32 0x3F800000#32 = 1 := by
  -- sign 0, exponent field 127 (the bias), fraction 0: the value is 2^23 * 2^(-23)
  simp [Ideal.ofBits, Ideal.ieee]
  rw [← EReal.coe_mul, ← EReal.coe_one, EReal.coe_eq_coe_iff]
  norm_num

/-- The word of the float -inf denotes the least extended real. -/
theorem ofBits_neg_inf_f32 : Ideal.ofBits .f32 0xFF800000#32 = ⊥ := by
  -- sign 1, exponent field all ones, fraction 0
  simp [Ideal.ofBits, Ideal.ieee]

/-- The word of the float +inf denotes the greatest extended real. -/
theorem ofBits_pos_inf_f32 : Ideal.ofBits .f32 0x7F800000#32 = ⊤ := by
  -- sign 0, exponent field all ones, fraction 0
  simp [Ideal.ofBits, Ideal.ieee]

/-- A finite float: an extended real strictly between the infinities is a real. -/
theorem real_of_abs_lt (a : EReal) (h : max a (-a) < Ideal.ofBits .f32 0x7F800000#32) : ∃ r : ℝ, a = (r : EReal) := by
  -- the bound is ⊤; at a = ⊥ and at a = ⊤ the absolute value max a (-a) is ⊤, which is not below ⊤
  rw [ofBits_pos_inf_f32] at h
  induction a using EReal.rec with
  | bot => simp at h
  | coe r => exact ⟨r, rfl⟩
  | top => simp at h

end Cert.MeanAgg

end
-- ==== Proof.KernelHost.lean ====
/-
  The host side of the two-region program: what each region finds in its input arrays.

  Before the projecting region the program cuts the edge table into its source and destination rows and transposes
  the two weight matrices. Between the regions it wraps negative source words once, gathers the projected rows
  `xl[src]`, adds them into the destination rows (an accumulating scatter from zeros), counts the edges per
  destination the same way (ones scattered into zeros), and reshapes the counts to a column and the bias to a row.
  So the combining region finds: the aggregated projections, the counts as a column, the node's own projection as
  the first region left it, and the bias row. The result buffer after the run is what the combining region leaves.
-/
import proofs.«423130_j60086592471684_4_alg».proof.Proof.Gen.KernelIdeal.Frame
import proofs.«423130_j60086592471684_4_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.HostValue

open Cert.KernelIdeal Cert.KernelIdeal.Gen
open Idealize.ShloMosaic Idealize.ShloMosaic.TcCoe Idealize.ShloMosaic.ValueIdx Idealize.SL.Sem Idealize.ShloMosaic.StableHlo

variable {F : FTy → Type} [FloatOps F]

/-- The column of source row numbers the gather reads: row 0 of the edge table, each word with 100000 added when it
    is negative. -/
def srcCol (ei : IVec S2x625000 32) : IVec S625000x1 32 :=
  broadcastInDim S625000x1 ![0] bcast_S625000_S625000x1_0
    (select
      (cmpi .slt (shapeCast S625000 (extractStridedSlice S1x625000 ![0, 0] ei slices_S2x625000_S1x625000_0_0) shapeCasts_S1x625000_S625000)
        (broadcastInDim S625000 ![] bcast_S_S625000 (constantI S_ 32 0#32)))
      (addi (shapeCast S625000 (extractStridedSlice S1x625000 ![0, 0] ei slices_S2x625000_S1x625000_0_0) shapeCasts_S1x625000_S625000)
        (broadcastInDim S625000 ![] bcast_S_S625000 (constantI S_ 32 100000#32)))
      (shapeCast S625000 (extractStridedSlice S1x625000 ![0, 0] ei slices_S2x625000_S1x625000_0_0) shapeCasts_S1x625000_S625000))

/-- The column of destination row numbers the two scatters read: row 1 of the edge table. -/
def dstCol (ei : IVec S2x625000 32) : IVec S625000x1 32 :=
  broadcastInDim S625000x1 ![0] bcast_S625000_S625000x1_0
    (shapeCast S625000 (extractStridedSlice S1x625000 ![1, 0] ei slices_S2x625000_S1x625000_1_0) shapeCasts_S1x625000_S625000)

/-- A flattened row of the edge table at edge `e` is the table at `(r, e)`: row 0. -/
theorem row0_apply (ei : IVec S2x625000 32) (e : Fin 625000) :
    shapeCast S625000 (extractStridedSlice S1x625000 ![0, 0] ei slices_S2x625000_S1x625000_0_0) shapeCasts_S1x625000_S625000 (ix1 e)
      = ei (ix2 (0 : Fin 2) e) := by
  refine (shapeCast_apply _ shapeCasts_S1x625000_S625000 (ix1 e) (ix2 (0 : Fin 1) e) ?_).trans ?_
  · rewrite [Shape.rowMajor_val_two, Shape.rowMajor_val_one]; show 0 * 625000 + e.val = e.val; omega
  · exact extractStridedSlice_apply ![0, 0] ei slices_S2x625000_S1x625000_0_0 (ix2 (0 : Fin 1) e) (ix2 (0 : Fin 2) e) (fun a => match a with
      | ⟨0, _⟩ => by show (0 : Nat) = 0 + 0; omega
      | ⟨1, _⟩ => by show e.val = 0 + e.val; omega)

/-- Row 1 likewise. -/
theorem row1_apply (ei : IVec S2x625000 32) (e : Fin 625000) :
    shapeCast S625000 (extractStridedSlice S1x625000 ![1, 0] ei slices_S2x625000_S1x625000_1_0) shapeCasts_S1x625000_S625000 (ix1 e)
      = ei (ix2 (1 : Fin 2) e) := by
  refine (shapeCast_apply _ shapeCasts_S1x625000_S625000 (ix1 e) (ix2 (0 : Fin 1) e) ?_).trans ?_
  · rewrite [Shape.rowMajor_val_two, Shape.rowMajor_val_one]; show 0 * 625000 + e.val = e.val; omega
  · exact extractStridedSlice_apply ![1, 0] ei slices_S2x625000_S1x625000_1_0 (ix2 (0 : Fin 1) e) (ix2 (1 : Fin 2) e) (fun a => match a with
      | ⟨0, _⟩ => by show (1 : Nat) = 1 + 0; omega
      | ⟨1, _⟩ => by show e.val = 0 + e.val; omega)

/-- A constant word spread over the 625000 edges is that word at every edge. -/
theorem splat_apply (w : BitVec 32) (i : S625000.Idx) :
    broadcastInDim S625000 ![] bcast_S_S625000 (constantI S_ 32 w) i = w :=
  broadcastInDim_apply _ bcast_S_S625000 (constantI S_ 32 w) i ix0 (fun a => a.elim0)

/-- A vector of 625000 words made a column, at `(e, 0)`, is the vector at `e`. -/
theorem column_apply (v : IVec S625000 32) (e : Fin 625000) :
    broadcastInDim S625000x1 ![0] bcast_S625000_S625000x1_0 v (ix2 e (0 : Fin 1)) = v (ix1 e) :=
  broadcastInDim_apply _ bcast_S625000_S625000x1_0 v (ix2 e (0 : Fin 1)) (ix1 e) (fun a => match a with
    | ⟨0, _⟩ => by show e.val = if (625000 : Nat) = 1 then 0 else e.val; rw [if_neg (by decide)])

/-- The source column at edge `e` is the edge's source word. -/
theorem srcCol_apply (ei : IVec S2x625000 32) (e : Fin 625000) :
    srcCol ei (ix2 e (0 : Fin 1)) = Cert.MeanAgg.srcWord ei e := by
  unfold srcCol Cert.MeanAgg.srcWord
  rw [column_apply]
  show Scalar.select (IntOp.cmpi .slt (shapeCast S625000 (extractStridedSlice S1x625000 ![0, 0] ei slices_S2x625000_S1x625000_0_0) shapeCasts_S1x625000_S625000 (ix1 e)) (broadcastInDim S625000 ![] bcast_S_S625000 (constantI S_ 32 0#32) (ix1 e)))
      (IntOp.addi (shapeCast S625000 (extractStridedSlice S1x625000 ![0, 0] ei slices_S2x625000_S1x625000_0_0) shapeCasts_S1x625000_S625000 (ix1 e)) (broadcastInDim S625000 ![] bcast_S_S625000 (constantI S_ 32 100000#32) (ix1 e)))
      (shapeCast S625000 (extractStridedSlice S1x625000 ![0, 0] ei slices_S2x625000_S1x625000_0_0) shapeCasts_S1x625000_S625000 (ix1 e)) = _
  rw [row0_apply, splat_apply, splat_apply]

/-- The destination column at edge `e` is row 1 of the edge table at `e`. -/
theorem dstCol_apply (ei : IVec S2x625000 32) (e : Fin 625000) :
    dstCol ei (ix2 e (0 : Fin 1)) = ei (ix2 (1 : Fin 2) e) := by
  unfold dstCol
  rw [column_apply, row1_apply]

variable (m : (ℓ : Loc nD τ sig) → Buf (Elt F) ℓ) (ρ : Dev nD → PrngReg)

/-- The projecting region finds the features as launched. -/
theorem V1_arg0 (c : Dev nD) :
    (V1 m ρ c main_arg0 : S100000x128.Idx → Elt F .f32) = m ((c : Thread nD τ).loc main_arg0) := by
  dsimp only [V1, W1, hostOps0]
  after_results

/-- The projecting region finds the first weight matrix transposed. -/
theorem V1_v4 (c : Dev nD) :
    (V1 m ρ c main_v4 : S128x32.Idx → Elt F .f32)
      = transpose S128x32 [1, 0] (m ((c : Thread nD τ).loc main_arg2) : S32x128.Idx → Elt F .f32) transposes_S32x128_S128x32_1_0 := by
  dsimp only [V1, W1, hostOps0]
  after_results

/-- The projecting region finds the second weight matrix transposed. -/
theorem V1_v5 (c : Dev nD) :
    (V1 m ρ c main_v5 : S128x32.Idx → Elt F .f32)
      = transpose S128x32 [1, 0] (m ((c : Thread nD τ).loc main_arg4) : S32x128.Idx → Elt F .f32) transposes_S32x128_S128x32_1_0 := by
  dsimp only [V1, W1, hostOps0]
  after_results

/-- At the first region's exit the flattened source row of the edge table is as the first stretch left it. -/
theorem W2_v1 (c : Dev nD) :
    (W2 m ρ c (Proc.devRef .tc main_v1) : S625000.Idx → BitVec 32)
      = shapeCast S625000 (extractStridedSlice S1x625000 ![0, 0] (m ((c : Thread nD τ).loc main_arg1) : S2x625000.Idx → BitVec 32) slices_S2x625000_S1x625000_0_0) shapeCasts_S1x625000_S625000 := by
  rw [W2_of_ne m ρ c main_v1 (by decide)]
  dsimp only [W1, hostOps0]
  after_results
  rfl

/-- And the flattened destination row. -/
theorem W2_v3 (c : Dev nD) :
    (W2 m ρ c (Proc.devRef .tc main_v3) : S625000.Idx → BitVec 32)
      = shapeCast S625000 (extractStridedSlice S1x625000 ![1, 0] (m ((c : Thread nD τ).loc main_arg1) : S2x625000.Idx → BitVec 32) slices_S2x625000_S1x625000_1_0) shapeCasts_S1x625000_S625000 := by
  rw [W2_of_ne m ρ c main_v3 (by decide)]
  dsimp only [W1, hostOps0]
  after_results
  rfl

/-- The bias is still as launched. -/
theorem W2_arg3 (c : Dev nD) :
    (W2 m ρ c (Proc.devRef .tc main_arg3) : S32.Idx → Elt F .f32) = m ((c : Thread nD τ).loc main_arg3) := by
  rw [W2_of_ne m ρ c main_arg3 (by decide)]
  dsimp only [W1, hostOps0]
  after_results

/-- The combining region finds, as the aggregated sums, the gathered first projection scattered by destination
    into zeros. -/
theorem V3_v16 (c : Dev nD) :
    (V3 m ρ c main_v16 : S100000x32.Idx → Elt F .f32)
      = Host.scatterAdd scatter_S100000x32_S625000x1_S625000x32_1_0_0_1
          (broadcastInDim S100000x32 ![] bcast_S_S100000x32 (constant S_ .f32 0x00000000#32))
          (dstCol (m ((c : Thread nD τ).loc main_arg1)))
          (Host.gather gather_S100000x32_S625000x1_S625000x32_1_0_n_n_0_1_132
            ((dat0 (V1 m ρ) c).arrAt 3 cfg0.N : S100000x32.Idx → Elt F .f32) (srcCol (m ((c : Thread nD τ).loc main_arg1)))) := by
  dsimp only [V3, W3, hostOps1]
  after_results
  rw [W2_v1, W2_v3, W2_arr m ρ c 3]
  rfl

/-- The combining region finds, as the counts, ones scattered by destination into zeros, as a column. -/
theorem V3_v21 (c : Dev nD) :
    (V3 m ρ c main_v21 : S100000x1.Idx → Elt F .f32)
      = shapeCast S100000x1
          (Host.scatterAdd scatter_S100000_S625000x1_S625000_n_0_0_1
            (broadcastInDim S100000 ![] bcast_S_S100000 (constant S_ .f32 0x00000000#32))
            (dstCol (m ((c : Thread nD τ).loc main_arg1)))
            (broadcastInDim S625000 ![] bcast_S_S625000 (constant S_ .f32 0x3F800000#32)))
          shapeCasts_S100000_S100000x1 := by
  dsimp only [V3, W3, hostOps1]
  after_results
  rw [W2_v3]
  rfl

/-- The combining region finds the bias as a row. -/
theorem V3_v22 (c : Dev nD) :
    (V3 m ρ c main_v22 : S1x32.Idx → Elt F .f32)
      = shapeCast S1x32 (m ((c : Thread nD τ).loc main_arg3) : S32.Idx → Elt F .f32) shapeCasts_S32_S1x32 := by
  dsimp only [V3, W3, hostOps1]
  after_results
  rw [W2_arg3]
  rfl

/-- The combining region finds the node's own projection as the projecting region left it. -/
theorem V3_v6_1 (c : Dev nD) :
    (V3 m ρ c main_v6_1 : S100000x32.Idx → Elt F .f32) = ((dat0 (V1 m ρ) c).arrAt 4 cfg0.N : S100000x32.Idx → Elt F .f32) := by
  dsimp only [V3, W3, hostOps1]
  after_results
  exact W2_arr m ρ c 4

/-- After the run the result buffer holds what the combining region leaves in its output array. -/
theorem W4_v23 (c : Dev nD) :
    (W4 m ρ c (Proc.devRef .tc main_v23) : S100000x32.Idx → Elt F .f32) = ((dat1 (V3 m ρ) c).arrAt 4 cfg1.N : S100000x32.Idx → Elt F .f32) :=
  W4_arr m ρ c 4

end Cert.KernelIdeal.HostValue

end
-- ==== Proof.ProjectValue.lean ====
/-
  What the projection region leaves: its two outputs as whole arrays. At each of the 50 grid points the body multiplies
  a block of 2000 rows of the features by a 128×32 weight matrix (from a zero accumulator), once per matrix, and the
  blocks tile the 100000 rows; so each output, read at `(n, j)`, is the sum over the 128 features `k` of the feature
  `(n, k)` times the weight `(k, j)`, whatever the region's entry contents `V` are.

  The steps: the product record's two index maps, axis by axis; the product into a zero accumulator read at `(p, q)` as a
  sum over `Fin 128`; what the body leaves in an output's buffer from its three input blocks; what a grid point writes
  back as ITS block of one function `G` of the whole arrays (block `t` of the features and of each output is rows
  `[2000 t, 2000 t + 2000)`, the weights are whole at every point); every row `n` lies in the block of point `n / 2000`;
  so the array ends holding `G`.
-/
import proofs.«423130_j60086592471684_4_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjectValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The features as the region finds them. -/
abbrev X (c : Dev nD) : S100000x128.Idx → EReal := V c main_arg0
/-- The first weight matrix (128 × 32) as the region finds it. -/
abbrev Wl (c : Dev nD) : S128x32.Idx → EReal := V c main_v4
/-- The second weight matrix (128 × 32) as the region finds it. -/
abbrev Wr (c : Dev nD) : S128x32.Idx → EReal := V c main_v5
/-- The first output array (window 3) after the region's last point. -/
abbrev outL (c : Dev nD) : S100000x32.Idx → EReal := (dat0 (F := Ideal) V c).arrAt 3 cfg0.N
/-- The second output array (window 4) after the region's last point. -/
abbrev outR (c : Dev nD) : S100000x32.Idx → EReal := (dat0 (F := Ideal) V c).arrAt 4 cfg0.N

/-! ## The product record's index maps, axis by axis

The left operand is indexed by (the output's row, the contracted feature), the right operand by (the contracted
feature, the output's column). -/

/-- The left operand's row is the output's row. -/
theorem lhs_axis0 (i : S2000x32.Idx) (q : dot_S2000x128_S128x32_S2000x32_1_0_0_1_n_n.contr.Idx) :
    (dot_S2000x128_S128x32_S2000x32_1_0_0_1_n_n.lhsIdx i q 0).val = (i 0).val := by
  unfold DotDims.lhsIdx
  rw [dif_neg (show ¬(0 : Fin S2000x128.rank) ∈ dot_S2000x128_S128x32_S2000x32_1_0_0_1_n_n.lhsBatch by decide), dif_pos (show (0 : Fin S2000x128.rank) ∈ dot_S2000x128_S128x32_S2000x32_1_0_0_1_n_n.lhsNonContracting by decide)]
  rfl
/-- The left operand's column is the contracted feature. -/
theorem lhs_axis1 (i : S2000x32.Idx) (q : dot_S2000x128_S128x32_S2000x32_1_0_0_1_n_n.contr.Idx) :
    (dot_S2000x128_S128x32_S2000x32_1_0_0_1_n_n.lhsIdx i q 1).val = (q ⟨0, by decide⟩).val :=
  dot_S2000x128_S128x32_S2000x32_1_0_0_1_n_n.lhsIdx_val_of_single rfl i q
/-- The right operand's row is the contracted feature. -/
theorem rhs_axis0 (i : S2000x32.Idx) (q : dot_S2000x128_S128x32_S2000x32_1_0_0_1_n_n.contr.Idx) :
    (dot_S2000x128_S128x32_S2000x32_1_0_0_1_n_n.rhsIdx i q 0).val = (q ⟨0, by decide⟩).val :=
  dot_S2000x128_S128x32_S2000x32_1_0_0_1_n_n.rhsIdx_val_of_single rfl i q
/-- The right operand's column is the output's column. -/
theorem rhs_axis1 (i : S2000x32.Idx) (q : dot_S2000x128_S128x32_S2000x32_1_0_0_1_n_n.contr.Idx) :
    (dot_S2000x128_S128x32_S2000x32_1_0_0_1_n_n.rhsIdx i q 1).val = (i 1).val := by
  unfold DotDims.rhsIdx
  rw [dif_neg (show ¬(1 : Fin S128x32.rank) ∈ dot_S2000x128_S128x32_S2000x32_1_0_0_1_n_n.rhsBatch by decide), dif_pos (show (1 : Fin S128x32.rank) ∈ dot_S2000x128_S128x32_S2000x32_1_0_0_1_n_n.rhsNonContracting by decide)]
  rfl

/-! ## The body's arithmetic at an index -/

/-- A block of 2000 rows times a 128 × 32 matrix, into a zero accumulator, at `(p, q)`: the sum over the 128
    features — the contracted index set is re-indexed by `Fin 128`, and each operand's index is read off axis by axis. -/
theorem matmul_zero_apply (x0 : FVec Ideal S2000x128 .f32) (w : FVec Ideal S128x32 .f32) (p : Fin 2000) (q : Fin 32) :
    FloatOps.matmul dot_S2000x128_S128x32_S2000x32_1_0_0_1_n_n none x0 w (constant (F := Ideal) S2000x32 .f32 0x00000000#32) (ix2 p q)
      = ∑ k : Fin 128, x0 (ix2 p k) * w (ix2 k q) := by
  rw [Ideal.matmul_constant_zero_apply, ← Equiv.sum_comp (ValueIdx.contrEquiv1 dot_S2000x128_S128x32_S2000x32_1_0_0_1_n_n 128 rfl rfl).symm]
  refine Finset.sum_congr rfl fun k _ => ?_
  have hk := ValueIdx.contrEquiv1_symm_val dot_S2000x128_S128x32_S2000x32_1_0_0_1_n_n 128 rfl rfl k
  have el : dot_S2000x128_S128x32_S2000x32_1_0_0_1_n_n.lhsIdx (ix2 p q) ((ValueIdx.contrEquiv1 dot_S2000x128_S128x32_S2000x32_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x32_S2000x32_1_0_0_1_n_n.rhsIdx (ix2 p q) ((ValueIdx.contrEquiv1 dot_S2000x128_S128x32_S2000x32_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-- The first product of the body at `(p, q)`; the reshape of the weights to their own shape changes nothing. -/
theorem pay1_apply (x0 : Vec Ideal S2000x128 .f32) (w : Vec Ideal S128x32 .f32) (p : Fin 2000) (q : Fin 32) :
    k0_pay1 (F := Ideal) x0 w (ix2 p q) = ∑ k : Fin 128, x0 (ix2 p k) * w (ix2 k q) := by
  unfold k0_pay1
  rw [shapeCast_self]
  exact matmul_zero_apply x0 w p q

/-- The second product of the body at `(p, q)`, likewise. -/
theorem pay2_apply (x0 : Vec Ideal S2000x128 .f32) (w : Vec Ideal S128x32 .f32) (p : Fin 2000) (q : Fin 32) :
    k0_pay2 (F := Ideal) x0 w (ix2 p q) = ∑ k : Fin 128, x0 (ix2 p k) * w (ix2 k q) := by
  unfold k0_pay2
  rw [shapeCast_self]
  exact matmul_zero_apply x0 w p q

/-! ## What the body leaves in each output's buffer, from the three input blocks -/

theorem zeros2 : (![0, 0] : Fin 2 → Nat) = fun _ => 0 := funext fun a => by fin_cases a <;> rfl

/-- Rows of `x` against columns of `w`: the whole-array function each output ends holding. -/
abbrev G (x : S100000x128.Idx → EReal) (w : S128x32.Idx → EReal) : S100000x32.Idx → EReal :=
  fun i => ∑ k : Fin 128, x (ix2 (⟨(i 0).val, idx2_lt0 i⟩ : Fin 100000) k) * w (ix2 k (⟨(i 1).val, idx2_lt1 i⟩ : Fin 32))

/-- The first output's buffer after the body: its one whole store of the first product of the whole loads. -/
theorem out3_apply (x0 : Vec Ideal S2000x128 .f32) (x1 x2 : Vec Ideal S128x32 .f32) (j : S2000x32.Idx) :
    out0_3 (F := Ideal) x0 x1 x2 j
      = ∑ k : Fin 128, x0 (ix2 (⟨(j 0).val, idx2_lt0 j⟩ : Fin 2000) k) * x1 (ix2 k (⟨(j 1).val, idx2_lt1 j⟩ : Fin 32)) := by
  obtain ⟨p, q, rfl⟩ : ∃ (p : Fin 2000) (q : Fin 32), j = ix2 p q := ⟨j 0, j 1, eq_ix2 j⟩
  unfold out0_3
  rw [View.canon_unit_zero zeros2]
  simp only [View.ld_unit_zero (S := S2000x128) zeros2, View.ld_unit_zero (S := S128x32) zeros2]
  exact pay1_apply x0 x1 p q

/-- The second output's buffer after the body: the second product, against the other weight block. -/
theorem out4_apply (x0 : Vec Ideal S2000x128 .f32) (x1 x2 : Vec Ideal S128x32 .f32) (j : S2000x32.Idx) :
    out0_4 (F := Ideal) x0 x1 x2 j
      = ∑ k : Fin 128, x0 (ix2 (⟨(j 0).val, idx2_lt0 j⟩ : Fin 2000) k) * x2 (ix2 k (⟨(j 1).val, idx2_lt1 j⟩ : Fin 32)) := by
  obtain ⟨p, q, rfl⟩ : ∃ (p : Fin 2000) (q : Fin 32), j = ix2 p q := ⟨j 0, j 1, eq_ix2 j⟩
  unfold out0_4
  rw [View.canon_unit_zero zeros2]
  simp only [View.ld_unit_zero (S := S2000x128) zeros2, View.ld_unit_zero (S := S128x32) zeros2]
  exact pay2_apply x0 x2 p q

/-! ## From blocks to the arrays -/

/-- The printed index maps, checked point by point over the 50 grid points: the features' and both outputs' block
    at point `t` is block `t` of the rows and the only block of the columns; the weights' block is the only one. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- What point `t` writes back to the first output is block `t` of `G` of the features and the first weights: a
    block's element sits in its array, on each axis, at the block index times the block's size plus its own coordinate. -/
theorem flushed3_eq (c : Dev nD) (t : Fin cfg0.N) :
    (dat0 (F := Ideal) V c).flushed 3 t = ((cfg0.win 3).blk t).view.read (Elt Ideal) (G (X V c) (Wl V c)) := by
  show (cfg0.win 3).cut (grid0.coords t) ((dat0 (F := Ideal) V c).after 3 t) = _
  rw [after0_3]
  obtain ⟨e00, e01, e10, e11, e20, e21, e30, e31, e40, e41⟩ := index_facts t
  funext j
  refine (out3_apply _ _ _ j).trans ?_
  show _ = G (X V c) (Wl V c) (((cfg0.win 3).blk t).view.emb j)
  refine Finset.sum_congr rfl fun k _ => ?_
  refine congrArg₂ (· * ·) ?_ ?_
  · show V c main_arg0 (((cfg0.win 0).blk t).view.emb _) = V c main_arg0 _
    refine congrArg _ (funext fun a => Fin.ext ?_)
    match a with
    | ⟨0, _⟩ => show win0_0.index t (0 : Fin 2) * 2000 + 1 * (j 0).val = win0_3.index t (0 : Fin 2) * 2000 + 1 * (j 0).val; omega
    | ⟨1, _⟩ => show win0_0.index t (1 : Fin 2) * 128 + 1 * k.val = k.val; omega
  · show V c main_v4 (((cfg0.win 1).blk t).view.emb _) = V c main_v4 _
    refine congrArg _ (funext fun a => Fin.ext ?_)
    match a with
    | ⟨0, _⟩ => show win0_1.index t (0 : Fin 2) * 128 + 1 * k.val = k.val; omega
    | ⟨1, _⟩ => show win0_1.index t (1 : Fin 2) * 32 + 1 * (j 1).val = win0_3.index t (1 : Fin 2) * 32 + 1 * (j 1).val; omega

/-- What point `t` writes back to the second output is block `t` of `G` of the features and the second weights. -/
theorem flushed4_eq (c : Dev nD) (t : Fin cfg0.N) :
    (dat0 (F := Ideal) V c).flushed 4 t = ((cfg0.win 4).blk t).view.read (Elt Ideal) (G (X V c) (Wr V c)) := by
  show (cfg0.win 4).cut (grid0.coords t) ((dat0 (F := Ideal) V c).after 4 t) = _
  rw [after0_4]
  obtain ⟨e00, e01, e10, e11, e20, e21, e30, e31, e40, e41⟩ := index_facts t
  funext j
  refine (out4_apply _ _ _ j).trans ?_
  show _ = G (X V c) (Wr V c) (((cfg0.win 4).blk t).view.emb j)
  refine Finset.sum_congr rfl fun k _ => ?_
  refine congrArg₂ (· * ·) ?_ ?_
  · show V c main_arg0 (((cfg0.win 0).blk t).view.emb _) = V c main_arg0 _
    refine congrArg _ (funext fun a => Fin.ext ?_)
    match a with
    | ⟨0, _⟩ => show win0_0.index t (0 : Fin 2) * 2000 + 1 * (j 0).val = win0_4.index t (0 : Fin 2) * 2000 + 1 * (j 0).val; omega
    | ⟨1, _⟩ => show win0_0.index t (1 : Fin 2) * 128 + 1 * k.val = k.val; omega
  · show V c main_v5 (((cfg0.win 2).blk t).view.emb _) = V c main_v5 _
    refine congrArg _ (funext fun a => Fin.ext ?_)
    match a with
    | ⟨0, _⟩ => show win0_2.index t (0 : Fin 2) * 128 + 1 * k.val = k.val; omega
    | ⟨1, _⟩ => show win0_2.index t (1 : Fin 2) * 32 + 1 * (j 1).val = win0_4.index t (1 : Fin 2) * 32 + 1 * (j 1).val; omega

/-- An index of the first output is in point `t`'s block iff each coordinate is in the block's range on its axis. -/
theorem mem_blk3 (t : Fin cfg0.N) (i : S100000x32.Idx) :
    i ∈ ((cfg0.win 3).blk t).view.set ↔ ∀ a : Fin 2, win0_3.index t a * S2000x32.size a ≤ (i a).val ∧ (i a).val < win0_3.index t a * S2000x32.size a + S2000x32.size a := by
  show i ∈ ((View.whole main_v6_0).slice (win0_3.rect t)).set ↔ _
  rw [View.set_slice_whole, Rect.mem_set_unit]
  exact Iff.rfl

/-- The same for the second output. -/
theorem mem_blk4 (t : Fin cfg0.N) (i : S100000x32.Idx) :
    i ∈ ((cfg0.win 4).blk t).view.set ↔ ∀ a : Fin 2, win0_4.index t a * S2000x32.size a ≤ (i a).val ∧ (i a).val < win0_4.index t a * S2000x32.size a + S2000x32.size a := by
  show i ∈ ((View.whole main_v6_1).slice (win0_4.rect t)).set ↔ _
  rw [View.set_slice_whole, Rect.mem_set_unit]
  exact Iff.rfl

/-- Every index of the first output is in some point's block: row `n` is in the block of point `n / 2000`. -/
theorem cover3 (i : S100000x32.Idx) :
    ∃ t : Fin cfg0.N, (cfg0.win 3).flush t = true ∧ i ∈ ((cfg0.win 3).blk t).view.set := by
  have hi0 : (i 0).val < 100000 := idx2_lt0 i
  have hi1 : (i 1).val < 32 := idx2_lt1 i
  obtain ⟨t, ht⟩ : ∃ t : Fin cfg0.N, t.val = (i 0).val / 2000 :=
    ⟨⟨(i 0).val / 2000, by show (i 0).val / 2000 < 50; omega⟩, rfl⟩
  obtain ⟨e00, e01, e10, e11, e20, e21, e30, e31, e40, e41⟩ := index_facts t
  refine ⟨t, flush0_3 t, ?_⟩
  rw [mem_blk3]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 32 ≤ (i 1).val ∧ (i 1).val < win0_3.index t (1 : Fin 2) * 32 + 32; omega

/-- The same for the second output. -/
theorem cover4 (i : S100000x32.Idx) :
    ∃ t : Fin cfg0.N, (cfg0.win 4).flush t = true ∧ i ∈ ((cfg0.win 4).blk t).view.set := by
  have hi0 : (i 0).val < 100000 := idx2_lt0 i
  have hi1 : (i 1).val < 32 := idx2_lt1 i
  obtain ⟨t, ht⟩ : ∃ t : Fin cfg0.N, t.val = (i 0).val / 2000 :=
    ⟨⟨(i 0).val / 2000, by show (i 0).val / 2000 < 50; omega⟩, rfl⟩
  obtain ⟨e00, e01, e10, e11, e20, e21, e30, e31, e40, e41⟩ := index_facts t
  refine ⟨t, flush0_4 t, ?_⟩
  rw [mem_blk4]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 32 ≤ (i 1).val ∧ (i 1).val < win0_4.index t (1 : Fin 2) * 32 + 32; omega

/-- The first output after the last point: `G` of the features and the first weights, everywhere. -/
theorem final3 (c : Dev nD) : (dat0 (F := Ideal) V c).arrAt 3 cfg0.N = G (X V c) (Wl V c) :=
  (dat0 (F := Ideal) V c).arrAt_eq_of_cover 3 (G (X V c) (Wl V c)) (fun t _ => flushed3_eq V c t) cover3

/-- The second output after the last point: `G` of the features and the second weights, everywhere. -/
theorem final4 (c : Dev nD) : (dat0 (F := Ideal) V c).arrAt 4 cfg0.N = G (X V c) (Wr V c) :=
  (dat0 (F := Ideal) V c).arrAt_eq_of_cover 4 (G (X V c) (Wr V c)) (fun t _ => flushed4_eq V c t) cover4

/-- The first output at `(n, j)`: row `n` of the features against column `j` of the first weight matrix. -/
theorem proj_left (c : Dev nD) (n : Fin 100000) (j : Fin 32) :
    outL V c (ix2 n j) = ∑ k : Fin 128, X V c (ix2 n k) * Wl V c (ix2 k j) :=
  congrFun (final3 V c) (ix2 n j)

/-- The second output likewise, against the second weight matrix. -/
theorem proj_right (c : Dev nD) (n : Fin 100000) (j : Fin 32) :
    outR V c (ix2 n j) = ∑ k : Fin 128, X V c (ix2 n k) * Wr V c (ix2 k j) :=
  congrFun (final4 V c) (ix2 n j)

end Cert.KernelIdeal.ProjectValue

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.CombineValue.lean ====
/-
  What the combining region leaves: its output as a whole array. At each of the 50 grid points the body takes a block of
  2000 rows: it divides each row of the aggregated sums by that row's count clamped below by one, adds the bias row and
  the node's own projection, rectifies, and takes the row's log-softmax (the row minus its maximum, minus the logarithm
  of the sum of the exponentials). The blocks tile the 100000 rows, so the output read at `(n, j)` is that function of
  row `n` of the region's inputs, whatever the region's entry contents `V` are.
-/
import proofs.«423130_j60086592471684_4_alg».proof.Proof.Gen.KernelIdeal.Frame
import proofs.«423130_j60086592471684_4_alg».proof.Proof.Spec
import proofs.«423130_j60086592471684_4_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.CombineValue

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The maximum of row `p` of a `[2000, 32]` array, as the reduction along the classes takes it from the least
    extended real: the fold of `max` over the 32 entries of the row. -/
theorem rowMax_apply (r : FVec Ideal S2000x32 .f32) (h : S2000x32.Reduces [1] S2000) (hφ : FKind.Formats .f32)
    (hacc : (0xFF800000#32 : BitVec 32) = FKind.maximumf.neutral .f32 hφ) (p : Fin 2000) :
    multiReduction .maximumf [1] S2000 r 0xFF800000#32 h hφ hacc (ix1 p)
      = (Finset.univ : Finset (Fin 32)).fold max ⊥ (fun k => r (ix2 p k)) := by
  refine (Ideal.multiReduction_maximumf_single r _ h hφ hacc (ix1 p)).trans ?_
  show (Finset.univ : Finset (Fin 32)).fold max (Ideal.ofBits .f32 0xFF800000#32) (r ∘ h.lift (ix1 p)) = _
  rw [Cert.MeanAgg.ofBits_neg_inf_f32]
  refine congrArg (fun f : Fin 32 → EReal => (Finset.univ : Finset (Fin 32)).fold max ⊥ f) ?_
  refine funext fun k => congrArg r (funext fun a => Fin.ext ?_)
  match a with
  | ⟨0, _⟩ => rfl
  | ⟨1, _⟩ => rfl

/-- The sum of row `p` of a `[2000, 32]` array, as the reduction along the classes takes it. -/
theorem rowSum_apply (e : FVec Ideal S2000x32 .f32) (h : S2000x32.Reduces [1] S2000) (hφ : FKind.Formats .f32)
    (hacc : (0x00000000#32 : BitVec 32) = FKind.add.neutral .f32 hφ) (p : Fin 2000) :
    multiReduction .add [1] S2000 e 0x00000000#32 h hφ hacc (ix1 p) = ∑ k : Fin 32, e (ix2 p k) := by
  refine (Ideal.multiReduction_add_single e _ h hφ hacc (ix1 p)).trans ?_
  show ∑ k : Fin 32, e (h.lift (ix1 p) k) = _
  refine Finset.sum_congr rfl fun k _ => congrArg e (funext fun a => Fin.ext ?_)
  match a with
  | ⟨0, _⟩ => rfl
  | ⟨1, _⟩ => rfl

/-- The log-softmax of the rows of a `[2000, 32]` array as the body computes it — the row maximum kept as a column and
    broadcast, the exponentials of the differences summed along the row, the logarithm of the sum broadcast back —
    read at `(p, q)`: the entry minus its row's maximum, minus the logarithm of the sum over the row of the
    exponentials of those differences. -/
theorem logSoftmax_apply (r : FVec Ideal S2000x32 .f32) (p : Fin 2000) (q : Fin 32) :
    subf
      (subf r (broadcastTo S2000x32 (shapeCast S2000x1
        (multiReduction .maximumf [1] S2000 r 0xFF800000#32 reduces_S2000x32_S2000 (.inl rfl) rfl)
        shapeCasts_S2000_S2000x1) broadcasts_S2000x1_S2000x32))
      (broadcastTo S2000x32 (log (shapeCast S2000x1
        (multiReduction .add [1] S2000
          (exp (subf r (broadcastTo S2000x32 (shapeCast S2000x1
            (multiReduction .maximumf [1] S2000 r 0xFF800000#32 reduces_S2000x32_S2000 (.inl rfl) rfl)
            shapeCasts_S2000_S2000x1) broadcasts_S2000x1_S2000x32)))
          0x00000000#32 reduces_S2000x32_S2000 (.inl rfl) rfl)
        shapeCasts_S2000_S2000x1)) broadcasts_S2000x1_S2000x32) (ix2 p q)
    = (r (ix2 p q) - (Finset.univ : Finset (Fin 32)).fold max ⊥ (fun k => r (ix2 p k)))
        - Ideal.log (∑ k : Fin 32, Ideal.exp (r (ix2 p k) - (Finset.univ : Finset (Fin 32)).fold max ⊥ (fun k' => r (ix2 p k')))) := by
  -- the row maximum, kept as a column and broadcast, read anywhere in row `p`
  have hM : ∀ k : Fin 32, broadcastTo S2000x32 (shapeCast S2000x1
        (multiReduction .maximumf [1] S2000 r 0xFF800000#32 reduces_S2000x32_S2000 (.inl rfl) rfl)
        shapeCasts_S2000_S2000x1) broadcasts_S2000x1_S2000x32 (ix2 p k)
      = (Finset.univ : Finset (Fin 32)).fold max ⊥ (fun k' => r (ix2 p k')) := fun k =>
    (Cert.Lib.keepdims_apply _ _ _ p k).trans (rowMax_apply r _ _ _ p)
  rw [subf_apply, subf_apply, hM, Cert.Lib.broadcastTo_a1_ab_apply]
  show _ - Ideal.log (shapeCast S2000x1 _ shapeCasts_S2000_S2000x1 (ix2 p (0 : Fin 1))) = _
  rw [Cert.Lib.shapeCast_a_a1_apply]
  refine congrArg (fun s => _ - Ideal.log s) ((rowSum_apply _ _ _ _ p).trans (Finset.sum_congr rfl fun k _ => ?_))
  show Ideal.exp (subf r _ (ix2 p k)) = _
  rw [subf_apply, hM]

/-- The body's value at `(p, q)` of its block: the rectified log-softmax, at class `q`, of the row
    `q' ↦ sums (p, q') / max (count p) 1 + bias q' + own (p, q')`. -/
theorem payload_apply (cnt : Vec Ideal S2000x1 .f32) (sums : Vec Ideal S2000x32 .f32) (bias : Vec Ideal S1x32 .f32)
    (own : Vec Ideal S2000x32 .f32) (p : Fin 2000) (q : Fin 32) :
    k1_pay1 cnt sums bias own (ix2 p q)
      = Cert.MeanAgg.tail (fun q' => Ideal.div (sums (ix2 p q')) (max (cnt (ix2 p (0 : Fin 1))) 1)
          + bias (ix2 (0 : Fin 1) q') + own (ix2 p q')) q := by
  unfold k1_pay1
  refine (logSoftmax_apply _ p q).trans ?_
  -- the rectified pre-activation read at `(p, k)`: every operation under it is pointwise or a broadcast
  simp only [maximumf_apply, addf_apply, divf_apply, shapeCast_self, broadcast_apply,
    Cert.Lib.broadcastTo_a1_ab_apply, broadcastTo_1b_ab_apply]
  -- the two constants: the word of 1.0 is the real 1, the zero word the real 0
  have h1 : (FloatOps.ofBits .f32 0x3F800000#32 : Ideal .f32) = 1 := Cert.MeanAgg.ofBits_one_f32
  have h0 : (FloatOps.ofBits .f32 0x00000000#32 : Ideal .f32) = 0 := Ideal.ofBits_zero_f32
  simp only [h1, h0]
  rfl

/-- The zero offsets of a whole-buffer access, as a constant function. -/
theorem zeroOffsets : (![0, 0] : Fin 2 → Nat) = fun _ => 0 := funext fun a => by fin_cases a <;> rfl

/-- The printed index maps, decided over the 50 grid points: at point `t` the windows of the sums, the counts, the
    node's own projection and the output are all at block row `t`, block column 0; the bias window stays at block (0, 0). -/
theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of block `t` is row `2000 t + p` of the array. -/
def rowOf (t : Fin cfg1.N) (p : Fin 2000) : Fin 100000 :=
  ⟨2000 * t.val + p.val, by have ht : t.val < 50 := Nat.lt_of_lt_of_eq t.isLt N_1; omega⟩

/-- Block `t` of the aggregated sums at `(p, q)` is the array at `(2000 t + p, q)`. -/
theorem sums_block (c : Dev nD) (t : Fin cfg1.N) (p : Fin 2000) (q : Fin 32) :
    (iblk1 V c 0 t : Vec Ideal S2000x32 .f32) (ix2 p q)
      = (V c main_v16 : S100000x32.Idx → EReal) (ix2 (rowOf t p) q) := by
  obtain ⟨e0, e1, -⟩ := blockIndex t
  unfold iblk1
  rw [View.read_apply]
  show (V c main_v16 : S100000x32.Idx → EReal) _ = _
  congr 1
  funext a; apply Fin.ext
  match a with
  | ⟨0, _⟩ => show win1_0.index t (0 : Fin 2) * 2000 + 1 * p.val = 2000 * t.val + p.val; rw [e0]; omega
  | ⟨1, _⟩ => show win1_0.index t (1 : Fin 2) * 32 + 1 * q.val = q.val; rw [e1]; omega

/-- Block `t` of the counts at `(p, 0)` is the array at `(2000 t + p, 0)`. -/
theorem counts_block (c : Dev nD) (t : Fin cfg1.N) (p : Fin 2000) (u : Fin 1) :
    (iblk1 V c 1 t : Vec Ideal S2000x1 .f32) (ix2 p u)
      = (V c main_v21 : S100000x1.Idx → EReal) (ix2 (rowOf t p) u) := by
  obtain ⟨-, -, e0, e1, -⟩ := blockIndex t
  unfold iblk1
  rw [View.read_apply]
  show (V c main_v21 : S100000x1.Idx → EReal) _ = _
  congr 1
  funext a; apply Fin.ext
  match a with
  | ⟨0, _⟩ => show win1_1.index t (0 : Fin 2) * 2000 + 1 * p.val = 2000 * t.val + p.val; rw [e0]; omega
  | ⟨1, _⟩ => show win1_1.index t (1 : Fin 2) * 1 + 1 * u.val = u.val; rw [e1]; omega

/-- Block `t` of the node's own projection at `(p, q)` is the array at `(2000 t + p, q)`. -/
theorem own_block (c : Dev nD) (t : Fin cfg1.N) (p : Fin 2000) (q : Fin 32) :
    (iblk1 V c 2 t : Vec Ideal S2000x32 .f32) (ix2 p q)
      = (V c main_v6_1 : S100000x32.Idx → EReal) (ix2 (rowOf t p) q) := by
  obtain ⟨-, -, -, -, e0, e1, -⟩ := blockIndex t
  unfold iblk1
  rw [View.read_apply]
  show (V c main_v6_1 : S100000x32.Idx → EReal) _ = _
  congr 1
  funext a; apply Fin.ext
  match a with
  | ⟨0, _⟩ => show win1_2.index t (0 : Fin 2) * 2000 + 1 * p.val = 2000 * t.val + p.val; rw [e0]; omega
  | ⟨1, _⟩ => show win1_2.index t (1 : Fin 2) * 32 + 1 * q.val = q.val; rw [e1]; omega

/-- The bias window's block is the whole bias row at every point. -/
theorem bias_block (c : Dev nD) (t : Fin cfg1.N) (u : Fin 1) (q : Fin 32) :
    (iblk1 V c 3 t : Vec Ideal S1x32 .f32) (ix2 u q) = (V c main_v22 : S1x32.Idx → EReal) (ix2 u q) := by
  obtain ⟨-, -, -, -, -, -, e0, e1, -⟩ := blockIndex t
  unfold iblk1
  rw [View.read_apply]
  show (V c main_v22 : S1x32.Idx → EReal) _ = _
  congr 1
  funext a; apply Fin.ext
  match a with
  | ⟨0, _⟩ => show win1_3.index t (0 : Fin 2) * 1 + 1 * u.val = u.val; rw [e0]; omega
  | ⟨1, _⟩ => show win1_3.index t (1 : Fin 2) * 32 + 1 * q.val = q.val; rw [e1]; omega

/-- The whole output array as one function of the region's input arrays: at `(n, j)` the rectified log-softmax, at
    class `j`, of row `n`'s pre-activation. -/
def combined (c : Dev nD) : S100000x32.Idx → EReal := fun i =>
  Cert.MeanAgg.tail (fun j' : Fin 32 =>
    Ideal.div ((V c main_v16 : S100000x32.Idx → EReal) (ix2 (i 0 : Fin 100000) j'))
        (max ((V c main_v21 : S100000x1.Idx → EReal) (ix2 (i 0 : Fin 100000) (0 : Fin 1))) 1)
      + (V c main_v22 : S1x32.Idx → EReal) (ix2 (0 : Fin 1) j')
      + (V c main_v6_1 : S100000x32.Idx → EReal) (ix2 (i 0 : Fin 100000) j')) (i 1 : Fin 32)

/-- What point `t` writes back is block `t` of that function. -/
theorem flushed_combined (c : Dev nD) (t : Fin cfg1.N) :
    (dat1 V c).flushed 4 t = ((cfg1.win 4).blk t).view.read (Elt Ideal) (combined V c) := by
  show (cfg1.win 4).cut (grid1.coords t) ((dat1 V c).after 4 t) = _
  rw [after1_4]
  unfold out1_4
  rw [View.canon_unit_zero zeroOffsets]
  simp only [View.ld_unit_zero (S := S2000x1) zeroOffsets, View.ld_unit_zero (S := S2000x32) zeroOffsets,
    View.ld_unit_zero (S := S1x32) zeroOffsets]
  funext y
  obtain ⟨p, q, rfl⟩ : ∃ (p : Fin 2000) (q : Fin 32), y = ix2 p q := ⟨y 0, y 1, eq_ix2 y⟩
  show k1_pay1 (iblk1 V c 1 t) (iblk1 V c 0 t) (iblk1 V c 3 t) (iblk1 V c 2 t) (ix2 p q)
    = combined V c (((cfg1.win 4).blk t).view.emb (ix2 p q))
  refine (payload_apply _ _ _ _ p q).trans ?_
  -- where the output's block `t` sits in the array
  have hemb : ((cfg1.win 4).blk t).view.emb (ix2 p q) = (ix2 (rowOf t p) q : S100000x32.Idx) := by
    obtain ⟨-, -, -, -, -, -, -, -, e0, e1⟩ := blockIndex t
    funext a; apply Fin.ext
    match a with
    | ⟨0, _⟩ => show win1_4.index t (0 : Fin 2) * 2000 + 1 * p.val = 2000 * t.val + p.val; rw [e0]; omega
    | ⟨1, _⟩ => show win1_4.index t (1 : Fin 2) * 32 + 1 * q.val = q.val; rw [e1]; omega
  rw [hemb]
  unfold combined
  refine congrArg (fun h => Cert.MeanAgg.tail h q) (funext fun q' => ?_)
  rw [sums_block, counts_block, bias_block, own_block]

/-- An index of the output array is in point `t`'s block iff each coordinate is in the block's range on its axis. -/
theorem mem_outBlock (t : Fin cfg1.N) (i : S100000x32.Idx) :
    i ∈ ((cfg1.win 4).blk t).view.set ↔ ∀ a : Fin 2, win1_4.index t a * S2000x32.size a ≤ (i a).val
      ∧ (i a).val < win1_4.index t a * S2000x32.size a + S2000x32.size a := by
  show i ∈ ((View.whole main_v23).slice (win1_4.rect t)).set ↔ _
  rw [View.set_slice_whole, Rect.mem_set_unit]
  exact Iff.rfl

/-- The 50 blocks of 2000 rows tile the 100000 rows: row `r` is in the block of point `r / 2000`. -/
theorem blocks_cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 50 := N_1
  refine ⟨⟨(i 0).val / 2000, by rw [hN]; omega⟩, flush1_4 _, ?_⟩
  obtain ⟨-, -, -, -, -, -, -, -, e0, e1⟩ := blockIndex ⟨(i 0).val / 2000, by rw [hN]; omega⟩
  rw [mem_outBlock]
  intro a
  match a with
  | ⟨0, _⟩ =>
    show win1_4.index ⟨(i 0).val / 2000, _⟩ (0 : Fin 2) * 2000 ≤ (i 0).val
      ∧ (i 0).val < win1_4.index ⟨(i 0).val / 2000, _⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, _⟩ (1 : Fin 2) * 32 ≤ (i 1).val
      ∧ (i 1).val < win1_4.index ⟨(i 0).val / 2000, _⟩ (1 : Fin 2) * 32 + 32
    rw [e1]; omega

/-- The output array after the last point is that function. -/
theorem arrAt_combined (c : Dev nD) : (dat1 V c).arrAt 4 cfg1.N = combined V c :=
  (dat1 V c).arrAt_eq_of_cover 4 (combined V c) (fun t _ => flushed_combined V c t) blocks_cover

/-- The output (window 4) after the region's last point, at `(n, j)`: the rectified log-softmax, at class `j`, of the
    row `j' ↦ sums (n, j') / max (count n) 1 + bias j' + own (n, j')`. -/
theorem combine_value (c : Dev nD) (n : Fin 100000) (j : Fin 32) :
    ((dat1 (F := Ideal) V c).arrAt 4 cfg1.N : S100000x32.Idx → EReal) (ix2 n j)
      = Cert.MeanAgg.tail (fun j' : Fin 32 =>
          Ideal.div ((V c main_v16 : S100000x32.Idx → EReal) (ix2 n j')) (max ((V c main_v21 : S100000x1.Idx → EReal) (ix2 n (0 : Fin 1))) 1)
            + (V c main_v22 : S1x32.Idx → EReal) (ix2 (0 : Fin 1) j')
            + (V c main_v6_1 : S100000x32.Idx → EReal) (ix2 n j')) j := by
  rw [arrAt_combined]
  rfl

end Cert.KernelIdeal.CombineValue

end
-- ==== Proof.LibScatterGather.lean ====
/-
  A row gather and an accumulating scatter read at one element, at the ideal values.

  `table[idx]` of a matrix by a column of row numbers gathers whole rows: the result's row `e` is the table's row
  `idx e`, the number read signed and clamped into the table (`gather_rows_apply`). The accumulating scatter that sends
  row `e` of the updates to row `idx e` of the operand leaves, at `(n, c)`, the operand's element plus the sum of the
  updates' `(e, c)` over the rows `e` whose number, read signed and NOT clamped, is `n` (`scatterAdd_rows_apply`); a row
  whose number is outside the operand is dropped. The same for a vector of updates scattered into a vector
  (`scatterAdd_vec_apply`). Stated at any extents, over the dimension numbers jax's `x[idx]` and
  `segment_sum` / `.at[idx].add` print for these shapes.

  How the scatter is read. Update `(e, c')` starts, on the operand's row axis, at the row number `idx[e, 0]` read signed
  (the row axis is the one the scatter indices name) with window coordinate `0` (the row axis is an inserted window
  axis); on the column axis it starts at `0` (not named) with window coordinate `c'`. So it lands at `(n, c)` exactly
  when `idx[e, 0] = n` and `c' = c`, and lands nowhere when the row number is outside `[0, N)`. The sum over the
  updates that land at `(n, c)` is then the double sum over `(e, c')` of an indicator, whose inner sum over `c'` keeps
  the one term `c' = c`.
-/
import Idealize.ShloMosaic.PureOps.Ideal
import Idealize.ShloMosaic.Lib.ValueIdx
import Idealize.ShloMosaic.Lib.ValueIdxRank1

noncomputable section

open scoped BigOperators

namespace Idealize.ShloMosaic.ScatterGather

open Idealize.ShloMosaic Idealize.ShloMosaic.ValueIdx

/-- The dimension numbers of a gather of whole rows of an `[N, C]` table by an `[E, 1]` column of row numbers. -/
abbrev rowsGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the table at row `idx[e, 0]`, read signed and clamped into `[0, N − 1]`, column `c`.
    On the row axis the operand index is the clamped start alone (no batching axis; the row axis is collapsed, so
    its offset coordinate is `0`; the slice there has size `1`, so the clamp is to `N − 1`). On the column axis the
    start is `0` (the start index map does not name it) and the offset coordinate is the result's column `c`. -/
theorem gather_rows_apply {α : Type} {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowsGatherDims N C E wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowsGatherDims N C E wf).start (ix2 e c) idx 0 + (rowsGatherDims N C E wf).batchCoord (ix2 e c) 0
      + (rowsGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N C E wf).startIndexMap from List.mem_singleton.mpr rfl)]
    -- the start index of result `(e, c)` is read at `[e, 0]`
    have hsi : (rowsGatherDims N C E wf).siIdx (ix2 e c) ⟨List.idxOf (0 : Fin 2) (rowsGatherDims N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowsGatherDims N C E wf).start (ix2 e c) idx 1 + (rowsGatherDims N C E wf).batchCoord (ix2 e c) 1
      + (rowsGatherDims N C E wf).offCoord (ix2 e c) 1 = _
    rw [GatherDims.batchCoord_eq_zero _ _ _ List.not_mem_nil]
    unfold GatherDims.start
    rw [dif_neg (show (1 : Fin 2) ∉ (rowsGatherDims N C E wf).startIndexMap from
      (show (1 : Fin 2) ∉ [(0 : Fin 2)] by decide))]
    unfold GatherDims.offCoord
    rw [dif_pos (show (1 : Fin 2) ∈ (rowsGatherDims N C E wf).sKept from
      (GatherDims.mem_sKept _ _).mpr ⟨(show (1 : Fin 2) ∉ [(0 : Fin 2)] by decide), List.not_mem_nil⟩)]
    simp only [Nat.zero_add]
    rfl

/-- The dimension numbers of a scatter of the rows of `[E, C]` updates into an `[N, C]` operand by an `[E, 1]` column
    of row numbers. -/
abbrev rowsScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N C E w : Nat} (wf : ScatterDims.WF ⟨2, ![N, C]⟩ ⟨2, ![E, 1]⟩ ⟨2, ![E, C]⟩ [1] [0] [0] 1)
  (idx : IVec ⟨2, ![E, 1]⟩ w) (e : Fin E) (c' : Fin C)

/-- On the row axis, update `(e, c')` starts at the row number `idx[e, 0]`, read signed. -/
theorem rows_start0 :
    (rowsScatterDims N C E wf).start (ix2 e c') idx (0 : Fin 2) = (idx (ix2 e (0 : Fin 1))).toInt := by
  unfold ScatterDims.start
  rw [dif_pos (show (0 : Fin 2) ∈ (rowsScatterDims N C E wf).scatterDimsToOperandDims from List.mem_singleton.mpr rfl)]
  -- the scatter index of update `(e, c')` is read at `[e, 0]`
  have hsi : (rowsScatterDims N C E wf).siIdx (ix2 e c')
      ⟨List.idxOf (0 : Fin 2) (rowsScatterDims N C E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which the scatter indices do not name, every update starts at `0`. -/
theorem rows_start1 : (rowsScatterDims N C E wf).start (ix2 e c') idx (1 : Fin 2) = 0 := by
  unfold ScatterDims.start
  rw [dif_neg (show (1 : Fin 2) ∉ (rowsScatterDims N C E wf).scatterDimsToOperandDims from
    (show (1 : Fin 2) ∉ [(0 : Fin 2)] by decide))]

/-- The row axis is an inserted window axis: the window coordinate there is `0`. -/
theorem rows_window0 : (rowsScatterDims N C E wf).window (ix2 e c') (0 : Fin 2) = 0 := by
  unfold ScatterDims.window
  rw [dif_neg]
  simp [ScatterDims.sKept, Shape.kept]

/-- The column axis is the one window axis: the window coordinate there is the update's column `c'`. -/
theorem rows_window1 : (rowsScatterDims N C E wf).window (ix2 e c') (1 : Fin 2) = c'.val := by
  unfold ScatterDims.window
  rw [dif_pos (by simp [ScatterDims.sKept, Shape.kept, List.finRange])]
  rfl

/-- Update `(e, c')` lands at `(n, c)` exactly when its row number, read signed, is `n` and `c' = c`. -/
theorem rows_resultIdx_iff (n : Fin N) (c : Fin C) :
    (rowsScatterDims N C E wf).resultIdx? (ix2 e c') idx = some (ix2 n c)
      ↔ (idx (ix2 e (0 : Fin 1))).toInt = (n.val : Int) ∧ c' = c := by
  unfold ScatterDims.resultIdx?
  constructor
  · intro h
    split at h
    · rename_i hall
      have hf := Option.some.inj h
      have h0 : ((rowsScatterDims N C E wf).start (ix2 e c') idx (0 : Fin 2)
          + ((rowsScatterDims N C E wf).window (ix2 e c') (0 : Fin 2) : Nat)).toNat = n.val :=
        congrArg (fun f => (f (0 : Fin 2)).val) hf
      have h1 : ((rowsScatterDims N C E wf).start (ix2 e c') idx (1 : Fin 2)
          + ((rowsScatterDims N C E wf).window (ix2 e c') (1 : Fin 2) : Nat)).toNat = c.val :=
        congrArg (fun f => (f (1 : Fin 2)).val) hf
      have hb0 := (hall (0 : Fin 2)).1
      rw [rows_start0, rows_window0] at h0 hb0
      rw [rows_start1, rows_window1] at h1
      exact ⟨by omega, Fin.ext (by omega)⟩
    · exact absurd h (by simp)
  · rintro ⟨ht, rfl⟩
    -- the landing index is inside the operand on both axes
    have hall : ∀ a : Fin 2, 0 ≤ (rowsScatterDims N C E wf).start (ix2 e c') idx a
          + ((rowsScatterDims N C E wf).window (ix2 e c') a : Nat)
        ∧ (rowsScatterDims N C E wf).start (ix2 e c') idx a
          + ((rowsScatterDims N C E wf).window (ix2 e c') a : Nat) < (((⟨2, ![N, C]⟩ : Shape).size a : Nat) : Int) := by
      intro a
      match a with
      | ⟨0, _⟩ =>
        show 0 ≤ (rowsScatterDims N C E wf).start (ix2 e c') idx (0 : Fin 2)
              + ((rowsScatterDims N C E wf).window (ix2 e c') (0 : Fin 2) : Nat)
            ∧ (rowsScatterDims N C E wf).start (ix2 e c') idx (0 : Fin 2)
              + ((rowsScatterDims N C E wf).window (ix2 e c') (0 : Fin 2) : Nat) < ((N : Nat) : Int)
        rw [rows_start0, rows_window0, ht]
        have := n.isLt
        omega
      | ⟨1, _⟩ =>
        show 0 ≤ (rowsScatterDims N C E wf).start (ix2 e c') idx (1 : Fin 2)
              + ((rowsScatterDims N C E wf).window (ix2 e c') (1 : Fin 2) : Nat)
            ∧ (rowsScatterDims N C E wf).start (ix2 e c') idx (1 : Fin 2)
              + ((rowsScatterDims N C E wf).window (ix2 e c') (1 : Fin 2) : Nat) < ((C : Nat) : Int)
        rw [rows_start1, rows_window1]
        have := c'.isLt
        omega
    rw [dif_pos hall]
    congr 1
    funext a
    refine Fin.ext ?_
    match a with
    | ⟨0, _⟩ =>
      show ((rowsScatterDims N C E wf).start (ix2 e c') idx (0 : Fin 2)
          + ((rowsScatterDims N C E wf).window (ix2 e c') (0 : Fin 2) : Nat)).toNat = n.val
      rw [rows_start0, rows_window0, ht]
      omega
    | ⟨1, _⟩ =>
      show ((rowsScatterDims N C E wf).start (ix2 e c') idx (1 : Fin 2)
          + ((rowsScatterDims N C E wf).window (ix2 e c') (1 : Fin 2) : Nat)).toNat = c'.val
      rw [rows_start1, rows_window1]
      omega

end Rows

/-- THE ACCUMULATING ROW SCATTER READ AT `(n, c)`: the operand there plus the updates' column `c` summed over the rows
    whose number, read signed, is `n`. The sum over the updates landing at `(n, c)` is the double sum over `(e, c')` of
    the update where `idx[e, 0] = n` and `c' = c`, and `0` elsewhere; for each `e` the inner sum keeps the term `c' = c`. -/
theorem scatterAdd_rows_apply {N C E w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (n : Fin N) (c : Fin C) :
    Ideal.hostScatterAdd (rowsScatterDims N C E wf) x idx upd (ix2 n c)
      = x (ix2 n c) + ∑ e ∈ Finset.univ.filter (fun e : Fin E => (idx (ix2 e (0 : Fin 1))).toInt = (n.val : Int)), upd (ix2 e c) := by
  unfold Ideal.hostScatterAdd
  refine congrArg (x (ix2 n c) + ·) ?_
  rw [Finset.sum_filter, sum_idx2, Finset.sum_filter]
  refine Finset.sum_congr rfl fun a _ => ?_
  simp only [rows_resultIdx_iff]
  by_cases hq : (idx (ix2 a (0 : Fin 1))).toInt = (n.val : Int)
  · simp [hq]
  · simp [hq]

/-- The dimension numbers of a scatter of `[E]` updates into an `[N]` operand by an `[E, 1]` column of positions. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Vec
variable {N E w : Nat} (wf : ScatterDims.WF ⟨1, ![N]⟩ ⟨2, ![E, 1]⟩ ⟨1, ![E]⟩ [] [0] [0] 1)
  (idx : IVec ⟨2, ![E, 1]⟩ w) (e : Fin E)

/-- Update `e` starts, on the operand's one axis, at the position `idx[e, 0]`, read signed. -/
theorem vec_start0 :
    (vecScatterDims N E wf).start (ix1 e) idx (0 : Fin 1) = (idx (ix2 e (0 : Fin 1))).toInt := by
  unfold ScatterDims.start
  rw [dif_pos (show (0 : Fin 1) ∈ (vecScatterDims N E wf).scatterDimsToOperandDims from List.mem_singleton.mpr rfl)]
  -- the scatter index of update `e` is read at `[e, 0]`
  have hsi : (vecScatterDims N E wf).siIdx (ix1 e)
      ⟨List.idxOf (0 : Fin 1) (vecScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is an inserted window axis: the window coordinate there is `0`. -/
theorem vec_window0 : (vecScatterDims N E wf).window (ix1 e) (0 : Fin 1) = 0 := by
  unfold ScatterDims.window
  rw [dif_neg]
  simp [ScatterDims.sKept, Shape.kept]

/-- Update `e` lands at `n` exactly when its position, read signed, is `n`. -/
theorem vec_resultIdx_iff (n : Fin N) :
    (vecScatterDims N E wf).resultIdx? (ix1 e) idx = some (ix1 n)
      ↔ (idx (ix2 e (0 : Fin 1))).toInt = (n.val : Int) := by
  unfold ScatterDims.resultIdx?
  constructor
  · intro h
    split at h
    · rename_i hall
      have hf := Option.some.inj h
      have h0 : ((vecScatterDims N E wf).start (ix1 e) idx (0 : Fin 1)
          + ((vecScatterDims N E wf).window (ix1 e) (0 : Fin 1) : Nat)).toNat = n.val :=
        congrArg (fun f => (f (0 : Fin 1)).val) hf
      have hb0 := (hall (0 : Fin 1)).1
      rw [vec_start0, vec_window0] at h0 hb0
      omega
    · exact absurd h (by simp)
  · intro ht
    -- the landing index is inside the operand
    have hall : ∀ a : Fin 1, 0 ≤ (vecScatterDims N E wf).start (ix1 e) idx a
          + ((vecScatterDims N E wf).window (ix1 e) a : Nat)
        ∧ (vecScatterDims N E wf).start (ix1 e) idx a
          + ((vecScatterDims N E wf).window (ix1 e) a : Nat) < (((⟨1, ![N]⟩ : Shape).size a : Nat) : Int) := by
      intro a
      obtain rfl : a = 0 := Subsingleton.elim _ _
      show 0 ≤ (vecScatterDims N E wf).start (ix1 e) idx (0 : Fin 1)
            + ((vecScatterDims N E wf).window (ix1 e) (0 : Fin 1) : Nat)
          ∧ (vecScatterDims N E wf).start (ix1 e) idx (0 : Fin 1)
            + ((vecScatterDims N E wf).window (ix1 e) (0 : Fin 1) : Nat) < ((N : Nat) : Int)
      rw [vec_start0, vec_window0, ht]
      have := n.isLt
      omega
    rw [dif_pos hall]
    congr 1
    funext a
    obtain rfl : a = 0 := Subsingleton.elim _ _
    refine Fin.ext ?_
    show ((vecScatterDims N E wf).start (ix1 e) idx (0 : Fin 1)
        + ((vecScatterDims N E wf).window (ix1 e) (0 : Fin 1) : Nat)).toNat = n.val
    rw [vec_start0, vec_window0, ht]
    omega

end Vec

/-- THE ACCUMULATING VECTOR SCATTER READ AT `n`: the operand there plus the updates summed over the positions whose
    number, read signed, is `n`. A rank-1 index is its one coordinate, so the sum over the updates landing at `n` is
    the sum over `e` of the update where `idx[e, 0] = n`, and `0` elsewhere. -/
theorem scatterAdd_vec_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatterDims N E wf) x idx upd (ix1 n)
      = x (ix1 n) + ∑ e ∈ Finset.univ.filter (fun e : Fin E => (idx (ix2 e (0 : Fin 1))).toInt = (n.val : Int)), upd (ix1 e) := by
  unfold Ideal.hostScatterAdd
  refine congrArg (x (ix1 n) + ·) ?_
  rw [Finset.sum_filter, Finset.sum_filter, ← Equiv.sum_comp (idxEquiv1 (n := E)).symm]
  refine Finset.sum_congr rfl fun a _ => ?_
  show (if (vecScatterDims N E wf).resultIdx? (ix1 a) idx = some (ix1 n) then upd (ix1 a) else 0) = _
  simp only [vec_resultIdx_iff]

end Idealize.ShloMosaic.ScatterGather

end
-- ==== Proof.KernelValue.lean ====
/-
  What the two-region program computes, read at one element. The result buffer after the run is what the combining
  region leaves: the rectified log-softmax of the row `sums / max count 1 + bias + own`. The sums are the first
  projection's rows gathered by source and added by destination, so at `(n, j')` they are the sum over the edges
  landing on `n` of the source row's features against row `j'` of the first weight matrix; the count is the number of
  those edges; the node's own term is its features against row `j'` of the second weight matrix. That is the
  project-then-aggregate pre-activation of the specification.
-/
import proofs.«423130_j60086592471684_4_alg».proof.Proof.KernelHost
import proofs.«423130_j60086592471684_4_alg».proof.Proof.ProjectValue
import proofs.«423130_j60086592471684_4_alg».proof.Proof.CombineValue
import proofs.«423130_j60086592471684_4_alg».proof.Proof.LibScatterGather
import proofs.«423130_j60086592471684_4_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.KernelValue

open Cert.KernelIdeal Cert.KernelIdeal.Gen Cert.KernelIdeal.HostValue
open Idealize.ShloMosaic Idealize.ShloMosaic.TcCoe Idealize.ShloMosaic.ValueIdx Idealize.SL.Sem Idealize.ShloMosaic.ScatterGather

variable (m : (ℓ : Loc nD τ sig) → Buf (Elt Ideal) ℓ) (ρ : Dev nD → PrngReg)

/-- The features as launched. -/
abbrev xA (c : Dev nD) : S100000x128.Idx → EReal := m ((c : Thread nD τ).loc main_arg0)
/-- The edge table as launched. -/
abbrev eiA (c : Dev nD) : IVec S2x625000 32 := m ((c : Thread nD τ).loc main_arg1)
/-- The first (aggregating) weight matrix as launched. -/
abbrev wlA (c : Dev nD) : S32x128.Idx → EReal := m ((c : Thread nD τ).loc main_arg2)
/-- The bias as launched. -/
abbrev bA (c : Dev nD) : S32.Idx → EReal := m ((c : Thread nD τ).loc main_arg3)
/-- The second (own-row) weight matrix as launched. -/
abbrev wrA (c : Dev nD) : S32x128.Idx → EReal := m ((c : Thread nD τ).loc main_arg4)

/-- The aggregated sums as the combining region finds them. -/
abbrev sumsA (c : Dev nD) : S100000x32.Idx → EReal := V3 m ρ c main_v16
/-- The counts column as the combining region finds it. -/
abbrev countA (c : Dev nD) : S100000x1.Idx → EReal := V3 m ρ c main_v21
/-- The bias row as the combining region finds it. -/
abbrev biasA (c : Dev nD) : S1x32.Idx → EReal := V3 m ρ c main_v22
/-- The node's own projection as the combining region finds it. -/
abbrev ownA (c : Dev nD) : S100000x32.Idx → EReal := V3 m ρ c main_v6_1

/-- A 32×128 matrix transposed, read at `(k, j)`, is the matrix at `(j, k)`. -/
theorem transpose_at (x : S32x128.Idx → EReal) (k : Fin 128) (j : Fin 32) :
    transpose S128x32 [1, 0] x transposes_S32x128_S128x32_1_0 (ix2 k j) = x (ix2 j k) :=
  transpose_apply [1, 0] x transposes_S32x128_S128x32_1_0 (ix2 k j) (ix2 j k) (fun b => match b with
    | ⟨0, _⟩ => rfl
    | ⟨1, _⟩ => rfl)

/-- The first projection as the projecting region leaves it, at `(n', j')`: node `n'`'s features against row `j'` of the
    first weight matrix. -/
theorem xl_apply (c : Dev nD) (n' : Fin 100000) (j' : Fin 32) :
    ((dat0 (F := Ideal) (V1 m ρ) c).arrAt 3 cfg0.N : S100000x32.Idx → EReal) (ix2 n' j')
      = ∑ k : Fin 128, xA m c (ix2 n' k) * wlA m c (ix2 j' k) := by
  refine (ProjectValue.proj_left (V1 m ρ) c n' j').trans (Finset.sum_congr rfl fun k _ => ?_)
  dsimp only [ProjectValue.X, ProjectValue.Wl]
  rw [V1_arg0 m ρ c, V1_v4 m ρ c, transpose_at]

/-- The second projection likewise, against the second weight matrix. -/
theorem xr_apply (c : Dev nD) (n' : Fin 100000) (j' : Fin 32) :
    ((dat0 (F := Ideal) (V1 m ρ) c).arrAt 4 cfg0.N : S100000x32.Idx → EReal) (ix2 n' j')
      = ∑ k : Fin 128, xA m c (ix2 n' k) * wrA m c (ix2 j' k) := by
  refine (ProjectValue.proj_right (V1 m ρ) c n' j').trans (Finset.sum_congr rfl fun k _ => ?_)
  dsimp only [ProjectValue.X, ProjectValue.Wr]
  rw [V1_arg0 m ρ c, V1_v5 m ρ c, transpose_at]

/-- The printed dimension numbers of the row scatter are the ones the reading lemma is stated over. -/
theorem rowsScatter_eq : scatter_S100000x32_S625000x1_S625000x32_1_0_0_1
    = rowsScatterDims 100000 32 625000 scatter_S100000x32_S625000x1_S625000x32_1_0_0_1_wf := rfl
/-- The printed dimension numbers of the count scatter likewise. -/
theorem vecScatter_eq : scatter_S100000_S625000x1_S625000_n_0_0_1
    = vecScatterDims 100000 625000 scatter_S100000_S625000x1_S625000_n_0_0_1_wf := rfl
/-- The printed dimension numbers of the row gather likewise. -/
theorem rowsGather_eq : gather_S100000x32_S625000x1_S625000x32_1_0_n_n_0_1_132
    = rowsGatherDims 100000 32 625000 gather_S100000x32_S625000x1_S625000x32_1_0_n_n_0_1_132_wf := rfl

/-- At the ideal values the host's accumulating scatter is the exact sum, whatever its dimension numbers. -/
theorem scatterAdd_ideal {s si u : Shape} {w : Nat} (d : ScatterDims s si u) (x : s.Idx → EReal) (idx : IVec si w) (upd : u.Idx → EReal) :
    Host.scatterAdd (F := Ideal) (φ := .f32) d x idx upd = Ideal.hostScatterAdd d x idx upd := rfl

/-- A broadcast scalar zero reads zero everywhere. -/
theorem zeros_apply {t : Shape} (h : S_.BroadcastsInDim t (![] : Fin 0 → Fin t.rank)) (i : t.Idx) :
    broadcastInDim t ![] h (constant (F := Ideal) S_ .f32 0x00000000#32) i = 0 := by
  rw [broadcastInDim_apply _ h _ i ix0 (fun a => a.elim0)]
  exact Ideal.ofBits_zero_f32

/-- The edges whose destination column entry, read signed, is `n` are the edges landing on `n`. -/
theorem filter_dst (ei : IVec S2x625000 32) (n : Fin 100000) :
    (Finset.univ.filter fun e : Fin 625000 => ((dstCol ei) (ix2 e (0 : Fin 1))).toInt = (n.val : Int)) = Cert.MeanAgg.lands ei n := by
  unfold Cert.MeanAgg.lands
  exact Finset.filter_congr fun e _ => by rw [dstCol_apply]

/-- The aggregated sums the combining region finds, at `(n, j')`. -/
theorem sums_apply (c : Dev nD) (n : Fin 100000) (j' : Fin 32) :
    sumsA m ρ c (ix2 n j')
      = ∑ e ∈ Cert.MeanAgg.lands (eiA m c) n, ∑ k : Fin 128, xA m c (ix2 (Cert.MeanAgg.srcRow (eiA m c) e) k) * wlA m c (ix2 j' k) := by
  dsimp only [sumsA]
  rw [V3_v16 m ρ c, rowsScatter_eq, scatterAdd_ideal, scatterAdd_rows_apply, filter_dst, zeros_apply, zero_add]
  refine Finset.sum_congr rfl fun e _ => ?_
  rw [rowsGather_eq, gather_rows_apply (by decide)]
  simp only [srcCol_apply]
  exact xl_apply m ρ c _ j'

/-- The count the combining region finds for node `n`: the number of edges landing on it. -/
theorem count_apply (c : Dev nD) (n : Fin 100000) :
    countA m ρ c (ix2 n (0 : Fin 1)) = ∑ _e ∈ Cert.MeanAgg.lands (eiA m c) n, (1 : EReal) := by
  dsimp only [countA]
  rw [V3_v21 m ρ c]
  rw [shapeCast_apply _ shapeCasts_S100000_S100000x1 (ix2 n (0 : Fin 1)) (ix1 n)
    (by rw [Shape.rowMajor_val_two, Shape.rowMajor_val_one]; show n.val = n.val * 1 + 0; omega)]
  rw [vecScatter_eq, scatterAdd_ideal, scatterAdd_vec_apply, filter_dst, zeros_apply, zero_add]
  refine Finset.sum_congr rfl fun e _ => ?_
  rw [broadcastInDim_apply _ bcast_S_S625000 _ (ix1 e) ix0 (fun a => a.elim0)]
  exact Cert.MeanAgg.ofBits_one_f32

/-- The bias row the combining region finds, at `(0, j')`. -/
theorem bias_apply (c : Dev nD) (j' : Fin 32) :
    biasA m ρ c (ix2 (0 : Fin 1) j') = bA m c (ix1 j') := by
  dsimp only [biasA]
  rw [V3_v22 m ρ c]
  exact shapeCast_apply _ shapeCasts_S32_S1x32 (ix2 (0 : Fin 1) j') (ix1 j')
    (by rw [Shape.rowMajor_val_two, Shape.rowMajor_val_one]; show j'.val = 0 * 32 + j'.val; omega)

/-- The node's own projection the combining region finds, at `(n, j')`. -/
theorem own_apply (c : Dev nD) (n : Fin 100000) (j' : Fin 32) :
    ownA m ρ c (ix2 n j') = ∑ k : Fin 128, xA m c (ix2 n k) * wrA m c (ix2 j' k) := by
  dsimp only [ownA]
  rw [V3_v6_1 m ρ c]
  exact xr_apply m ρ c n j'

/-- THE KERNEL'S VALUE: the result buffer after the run, at `(n, j)`, is the specification's output in the
    project-then-aggregate arrangement, of the arguments as launched. -/
theorem kernel_value (c : Dev nD) (n : Fin 100000) (j : Fin 32) :
    (W4 m ρ c (Proc.devRef .tc main_v23) : S100000x32.Idx → EReal) (ix2 n j)
      = Cert.MeanAgg.tail (Cert.MeanAgg.preK (fun (n' : Fin 100000) (k : Fin 128) => xA m c (ix2 n' k))
          (fun (c' : Fin 32) (k : Fin 128) => wlA m c (ix2 c' k)) (fun (c' : Fin 32) (k : Fin 128) => wrA m c (ix2 c' k))
          (fun c' : Fin 32 => bA m c (ix1 c')) (Cert.MeanAgg.srcRow (eiA m c)) (Cert.MeanAgg.lands (eiA m c)) n) j := by
  refine (congrFun (W4_v23 m ρ c) (ix2 n j)).trans ((CombineValue.combine_value (V3 m ρ) c n j).trans ?_)
  refine congrArg (fun h => Cert.MeanAgg.tail h j) (funext fun j' => ?_)
  unfold Cert.MeanAgg.preK
  show Ideal.div (sumsA m ρ c (ix2 n j')) (max (countA m ρ c (ix2 n (0 : Fin 1))) 1) + biasA m ρ c (ix2 (0 : Fin 1) j') + ownA m ρ c (ix2 n j') = _
  rw [sums_apply m ρ c n j', count_apply m ρ c n, bias_apply m ρ c j', own_apply m ρ c n j']

end Cert.KernelIdeal.KernelValue

end
-- ==== Proof.RefRun.lean ====
/-
  The reference program's run, read back in two stretches.

  @main is a straight line of 55 host operations: 37 that end in the pre-activation (the aggregated and divided
  features projected, plus the bias, plus the node's own projection) and 18 — the rectifier and the log-softmax, two
  functions the program calls — that turn the pre-activation into the result. The contents after the whole line are
  the contents after the second stretch from the contents after the first (`after_append`). The first stretch leaves
  the pre-activation's buffer at the stage `val_main_v30` of the five arguments (`pre_stage`); the second, from ANY
  contents `W`, leaves the result's buffer at `hostTail` of what `W` holds in the pre-activation's buffer
  (`tail_stage`): stated so, the second stretch's composed term mentions the pre-activation only as a variable. And
  `hostTail` of the pre-activation's stage is the last stage `val_main_v32` (`tail_eq`). So every weakly fair
  execution ends with the result at `val_main_v32` of the arguments, and the arguments unchanged (`run`).
-/
import proofs.«423130_j60086592471684_4_alg».proof.Proof.Gen.ReferenceIdeal
import proofs.«423130_j60086592471684_4_alg».proof.Proof.RefRead
import Idealize.ShloMosaic.Lib.StableHlo.Run

noncomputable section

namespace Cert.ReferenceIdeal.RefRun

open Cert.ReferenceIdeal Cert.ReferenceIdeal.Gen Cert.ReferenceIdeal.ReadP Idealize.ShloMosaic Idealize.ShloMosaic.TcCoe Idealize.SL.Sem Idealize.ShloMosaic.StableHlo

variable {F : FTy → Type} [FloatOps F]

/-- @main's 55 operations, in order (a called function's operations stand in its call's place). -/
abbrev ops : List (HloOp τ sig (Elt F)) :=
  [ unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000,
    nullary main_c (constantI S_ 32 0#32),
    unary main_c main_v4 (broadcastInDim S625000 ![] bcast_S_S625000 : (⟨S_, .i32⟩ : BufTy).Contents (Elt F) → (⟨S625000, .i32⟩ : BufTy).Contents (Elt F)),
    binary main_v1 main_v4 main_v5 (cmpi .slt : (⟨S625000, .i32⟩ : BufTy).Contents (Elt F) → (⟨S625000, .i32⟩ : BufTy).Contents (Elt F) → (⟨S625000, .i1⟩ : BufTy).Contents (Elt F)),
    nullary main_c_0 (constantI S_ 32 100000#32),
    unary main_c_0 main_v6 (broadcastInDim S625000 ![] bcast_S_S625000 : (⟨S_, .i32⟩ : BufTy).Contents (Elt F) → (⟨S625000, .i32⟩ : BufTy).Contents (Elt F)),
    binary main_v1 main_v6 main_v7 (addi : (⟨S625000, .i32⟩ : BufTy).Contents (Elt F) → (⟨S625000, .i32⟩ : BufTy).Contents (Elt F) → (⟨S625000, .i32⟩ : BufTy).Contents (Elt F)),
    ternary main_v5 main_v7 main_v1 main_v8 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v8 main_v9 (broadcastInDim S625000x1 ![0] bcast_S625000_S625000x1_0 : (⟨S625000, .i32⟩ : BufTy).Contents (Elt F) → (⟨S625000x1, .i32⟩ : BufTy).Contents (Elt F)),
    binary main_arg0 main_v9 main_v10 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S625000x1 ![0] bcast_S625000_S625000x1_0 : (⟨S625000, .i32⟩ : BufTy).Contents (Elt F) → (⟨S625000x1, .i32⟩ : BufTy).Contents (Elt F)),
    ternary main_v11 main_v12 main_v10 main_v13 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_1 (constant S_ .f32 0x3F800000#32),
    unary main_cst_1 main_v14 (broadcastInDim S625000 ![] bcast_S_S625000 : (⟨S_, .f32⟩ : BufTy).Contents (Elt F) → (⟨S625000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S625000x1 ![0] bcast_S625000_S625000x1_0 : (⟨S625000, .i32⟩ : BufTy).Contents (Elt F) → (⟨S625000x1, .i32⟩ : BufTy).Contents (Elt F)),
    ternary main_v15 main_v16 main_v14 main_v17 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((transpose S128x32 [1, 0] · transposes_S32x128_S128x32_1_0) : (⟨S32x128, .f32⟩ : BufTy).Contents (Elt F) → (⟨S128x32, .f32⟩ : BufTy).Contents (Elt F)),
    binary main_v22 main_v23 main_v24 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    unary main_arg3 main_v25 (broadcastInDim S1x32 ![1] bcast_S32_S1x32_1 : (⟨S32, .f32⟩ : BufTy).Contents (Elt F) → (⟨S1x32, .f32⟩ : BufTy).Contents (Elt F)),
    unary main_v25 main_v26 (broadcastInDim S100000x32 ![0, 1] bcast_S1x32_S100000x32_0_1 : (⟨S1x32, .f32⟩ : BufTy).Contents (Elt F) → (⟨S100000x32, .f32⟩ : BufTy).Contents (Elt F)),
    binary main_v24 main_v26 main_v27 (addf : (⟨S100000x32, .f32⟩ : BufTy).Contents (Elt F) → (⟨S100000x32, .f32⟩ : BufTy).Contents (Elt F) → (⟨S100000x32, .f32⟩ : BufTy).Contents (Elt F)),
    unary main_arg4 main_v28 ((transpose S128x32 [1, 0] · transposes_S32x128_S128x32_1_0) : (⟨S32x128, .f32⟩ : BufTy).Contents (Elt F) → (⟨S128x32, .f32⟩ : BufTy).Contents (Elt F)),
    binary main_arg0 main_v28 main_v29 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    binary main_v27 main_v29 main_v30 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x32, .f32⟩) main_call0_v0) (broadcastInDim S100000x32 ![] bcast_S_S100000x32),
    TRef.binary (TRef.of (T := ⟨S100000x32, .f32⟩) main_v30) (TRef.of (T := ⟨S100000x32, .f32⟩) main_call0_v0) (TRef.of (T := ⟨S100000x32, .f32⟩) main_v31) maximumf,
    TRef.nullary (TRef.of (T := ⟨S_, .f32⟩) main_call1_cst) (constant S_ .f32 0xFF800000#32),
    TRef.binary (TRef.of (T := ⟨S100000x32, .f32⟩) main_v31) (TRef.of (T := ⟨S_, .f32⟩) main_call1_cst) (TRef.of (T := ⟨S100000, .f32⟩) main_call1_v0) (fun x v => Host.reduce FloatOps.maximumf x v reducesTo_S100000x32_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x32, .f32⟩) main_call1_v4) (broadcastInDim S100000x32 ![0, 1] bcast_S100000x1_S100000x32_0_1),
    TRef.binary (TRef.of (T := ⟨S100000x32, .f32⟩) main_v31) (TRef.of (T := ⟨S100000x32, .f32⟩) main_call1_v4) (TRef.of (T := ⟨S100000x32, .f32⟩) main_call1_v5) subf,
    TRef.unary (TRef.of (T := ⟨S100000x32, .f32⟩) main_call1_v5) (TRef.of (T := ⟨S100000x32, .f32⟩) main_call1_v6) Host.exp,
    TRef.nullary (TRef.of (T := ⟨S_, .f32⟩) main_call1_cst_1) (constant S_ .f32 0x00000000#32),
    TRef.binary (TRef.of (T := ⟨S100000x32, .f32⟩) main_call1_v6) (TRef.of (T := ⟨S_, .f32⟩) main_call1_cst_1) (TRef.of (T := ⟨S100000, .f32⟩) main_call1_v7) (fun x v => Host.reduceAdd x v reducesTo_S100000x32_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x32, .f32⟩) main_call1_v10) (broadcastInDim S100000x32 ![0, 1] bcast_S100000x1_S100000x32_0_1),
    TRef.binary (TRef.of (T := ⟨S100000x32, .f32⟩) main_call1_v5) (TRef.of (T := ⟨S100000x32, .f32⟩) main_call1_v10) (TRef.of (T := ⟨S100000x32, .f32⟩) main_v32) subf ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The first stretch: the 37 operations that end in the pre-activation. -/
abbrev opsPre : List (HloOp τ sig (Elt F)) :=
  [ unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000,
    nullary main_c (constantI S_ 32 0#32),
    unary main_c main_v4 (broadcastInDim S625000 ![] bcast_S_S625000 : (⟨S_, .i32⟩ : BufTy).Contents (Elt F) → (⟨S625000, .i32⟩ : BufTy).Contents (Elt F)),
    binary main_v1 main_v4 main_v5 (cmpi .slt : (⟨S625000, .i32⟩ : BufTy).Contents (Elt F) → (⟨S625000, .i32⟩ : BufTy).Contents (Elt F) → (⟨S625000, .i1⟩ : BufTy).Contents (Elt F)),
    nullary main_c_0 (constantI S_ 32 100000#32),
    unary main_c_0 main_v6 (broadcastInDim S625000 ![] bcast_S_S625000 : (⟨S_, .i32⟩ : BufTy).Contents (Elt F) → (⟨S625000, .i32⟩ : BufTy).Contents (Elt F)),
    binary main_v1 main_v6 main_v7 (addi : (⟨S625000, .i32⟩ : BufTy).Contents (Elt F) → (⟨S625000, .i32⟩ : BufTy).Contents (Elt F) → (⟨S625000, .i32⟩ : BufTy).Contents (Elt F)),
    ternary main_v5 main_v7 main_v1 main_v8 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v8 main_v9 (broadcastInDim S625000x1 ![0] bcast_S625000_S625000x1_0 : (⟨S625000, .i32⟩ : BufTy).Contents (Elt F) → (⟨S625000x1, .i32⟩ : BufTy).Contents (Elt F)),
    binary main_arg0 main_v9 main_v10 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_v3 main_v12 (broadcastInDim S625000x1 ![0] bcast_S625000_S625000x1_0 : (⟨S625000, .i32⟩ : BufTy).Contents (Elt F) → (⟨S625000x1, .i32⟩ : BufTy).Contents (Elt F)),
    ternary main_v11 main_v12 main_v10 main_v13 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    nullary main_cst_1 (constant S_ .f32 0x3F800000#32),
    unary main_cst_1 main_v14 (broadcastInDim S625000 ![] bcast_S_S625000 : (⟨S_, .f32⟩ : BufTy).Contents (Elt F) → (⟨S625000, .f32⟩ : BufTy).Contents (Elt F)),
    nullary main_cst_2 (constant S_ .f32 0x00000000#32),
    unary main_cst_2 main_v15 (broadcastInDim S100000 ![] bcast_S_S100000 : (⟨S_, .f32⟩ : BufTy).Contents (Elt F) → (⟨S100000, .f32⟩ : BufTy).Contents (Elt F)),
    unary main_v3 main_v16 (broadcastInDim S625000x1 ![0] bcast_S625000_S625000x1_0 : (⟨S625000, .i32⟩ : BufTy).Contents (Elt F) → (⟨S625000x1, .i32⟩ : BufTy).Contents (Elt F)),
    ternary main_v15 main_v16 main_v14 main_v17 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    nullary main_cst_3 (constant S_ .f32 0x3F800000#32),
    unary main_cst_3 main_v18 (broadcastInDim S100000 ![] bcast_S_S100000 : (⟨S_, .f32⟩ : BufTy).Contents (Elt F) → (⟨S100000, .f32⟩ : BufTy).Contents (Elt F)),
    binary main_v17 main_v18 main_v19 (maximumf : (⟨S100000, .f32⟩ : BufTy).Contents (Elt F) → (⟨S100000, .f32⟩ : BufTy).Contents (Elt F) → (⟨S100000, .f32⟩ : BufTy).Contents (Elt F)),
    unary main_v19 main_v20 (broadcastInDim S100000x1 ![0] bcast_S100000_S100000x1_0 : (⟨S100000, .f32⟩ : BufTy).Contents (Elt F) → (⟨S100000x1, .f32⟩ : BufTy).Contents (Elt F)),
    unary main_v20 main_v21 (broadcastInDim S100000x128 ![0, 1] bcast_S100000x1_S100000x128_0_1 : (⟨S100000x1, .f32⟩ : BufTy).Contents (Elt F) → (⟨S100000x128, .f32⟩ : BufTy).Contents (Elt F)),
    binary main_v13 main_v21 main_v22 (Host.divf : (⟨S100000x128, .f32⟩ : BufTy).Contents (Elt F) → (⟨S100000x128, .f32⟩ : BufTy).Contents (Elt F) → (⟨S100000x128, .f32⟩ : BufTy).Contents (Elt F)),
    unary main_arg2 main_v23 ((transpose S128x32 [1, 0] · transposes_S32x128_S128x32_1_0) : (⟨S32x128, .f32⟩ : BufTy).Contents (Elt F) → (⟨S128x32, .f32⟩ : BufTy).Contents (Elt F)),
    binary main_v22 main_v23 main_v24 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    unary main_arg3 main_v25 (broadcastInDim S1x32 ![1] bcast_S32_S1x32_1 : (⟨S32, .f32⟩ : BufTy).Contents (Elt F) → (⟨S1x32, .f32⟩ : BufTy).Contents (Elt F)),
    unary main_v25 main_v26 (broadcastInDim S100000x32 ![0, 1] bcast_S1x32_S100000x32_0_1 : (⟨S1x32, .f32⟩ : BufTy).Contents (Elt F) → (⟨S100000x32, .f32⟩ : BufTy).Contents (Elt F)),
    binary main_v24 main_v26 main_v27 (addf : (⟨S100000x32, .f32⟩ : BufTy).Contents (Elt F) → (⟨S100000x32, .f32⟩ : BufTy).Contents (Elt F) → (⟨S100000x32, .f32⟩ : BufTy).Contents (Elt F)),
    unary main_arg4 main_v28 ((transpose S128x32 [1, 0] · transposes_S32x128_S128x32_1_0) : (⟨S32x128, .f32⟩ : BufTy).Contents (Elt F) → (⟨S128x32, .f32⟩ : BufTy).Contents (Elt F)),
    binary main_arg0 main_v28 main_v29 ((fun l r => Host.dotGeneral dot_S100000x128_S128x32_S100000x32_1_0_0_1_n_n none l r) : (⟨S100000x128, .f32⟩ : BufTy).Contents (Elt F) → (⟨S128x32, .f32⟩ : BufTy).Contents (Elt F) → (⟨S100000x32, .f32⟩ : BufTy).Contents (Elt F)),
    binary main_v27 main_v29 main_v30 (addf : (⟨S100000x32, .f32⟩ : BufTy).Contents (Elt F) → (⟨S100000x32, .f32⟩ : BufTy).Contents (Elt F) → (⟨S100000x32, .f32⟩ : BufTy).Contents (Elt F)) ]

/-- The second stretch: the rectifier's and the log-softmax's 18 operations. -/
abbrev opsTail : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S100000x32, .f32⟩) main_call0_v0) (broadcastInDim S100000x32 ![] bcast_S_S100000x32),
    TRef.binary (TRef.of (T := ⟨S100000x32, .f32⟩) main_v30) (TRef.of (T := ⟨S100000x32, .f32⟩) main_call0_v0) (TRef.of (T := ⟨S100000x32, .f32⟩) main_v31) maximumf,
    TRef.nullary (TRef.of (T := ⟨S_, .f32⟩) main_call1_cst) (constant S_ .f32 0xFF800000#32),
    TRef.binary (TRef.of (T := ⟨S100000x32, .f32⟩) main_v31) (TRef.of (T := ⟨S_, .f32⟩) main_call1_cst) (TRef.of (T := ⟨S100000, .f32⟩) main_call1_v0) (fun x v => Host.reduce FloatOps.maximumf x v reducesTo_S100000x32_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x32, .f32⟩) main_call1_v4) (broadcastInDim S100000x32 ![0, 1] bcast_S100000x1_S100000x32_0_1),
    TRef.binary (TRef.of (T := ⟨S100000x32, .f32⟩) main_v31) (TRef.of (T := ⟨S100000x32, .f32⟩) main_call1_v4) (TRef.of (T := ⟨S100000x32, .f32⟩) main_call1_v5) subf,
    TRef.unary (TRef.of (T := ⟨S100000x32, .f32⟩) main_call1_v5) (TRef.of (T := ⟨S100000x32, .f32⟩) main_call1_v6) Host.exp,
    TRef.nullary (TRef.of (T := ⟨S_, .f32⟩) main_call1_cst_1) (constant S_ .f32 0x00000000#32),
    TRef.binary (TRef.of (T := ⟨S100000x32, .f32⟩) main_call1_v6) (TRef.of (T := ⟨S_, .f32⟩) main_call1_cst_1) (TRef.of (T := ⟨S100000, .f32⟩) main_call1_v7) (fun x v => Host.reduceAdd x v reducesTo_S100000x32_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x32, .f32⟩) main_call1_v10) (broadcastInDim S100000x32 ![0, 1] bcast_S100000x1_S100000x32_0_1),
    TRef.binary (TRef.of (T := ⟨S100000x32, .f32⟩) main_call1_v5) (TRef.of (T := ⟨S100000x32, .f32⟩) main_call1_v10) (TRef.of (T := ⟨S100000x32, .f32⟩) main_v32) subf ]

set_option maxRecDepth 8192 in
theorem ops_split : (ops : List (HloOp τ sig (Elt F))) = opsPre ++ opsTail := rfl

/-- The contents after two lines run one after the other are the second's from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The rectifier and the log-softmax as one function of the pre-activation: `max h 0`, its row maxima (from `-inf`,
    and once more against `-inf`), the differences, the row sums of their exponentials, and the differences minus the
    logarithms of those sums. -/
def hostTail (h : (⟨S100000x32, .f32⟩ : BufTy).Contents (Elt F)) : (⟨S100000x32, .f32⟩ : BufTy).Contents (Elt F) :=
  subf
    (subf (maximumf h (broadcastInDim S100000x32 ![] bcast_S_S100000x32 (constant S_ .f32 0x00000000#32)))
      (broadcastInDim S100000x32 ![0, 1] bcast_S100000x1_S100000x32_0_1 (broadcastInDim S100000x1 ![0] bcast_S100000_S100000x1_0
        (maximumf (broadcastInDim S100000 ![] bcast_S_S100000 (constant S_ .f32 0xFF800000#32))
          (Host.reduce FloatOps.maximumf (maximumf h (broadcastInDim S100000x32 ![] bcast_S_S100000x32 (constant S_ .f32 0x00000000#32)))
            (constant S_ .f32 0xFF800000#32) reducesTo_S100000x32_S100000_d1 h_S_)))))
    (broadcastInDim S100000x32 ![0, 1] bcast_S100000x1_S100000x32_0_1 (Host.log (broadcastInDim S100000x1 ![0] bcast_S100000_S100000x1_0
      (Host.reduceAdd
        (Host.exp (subf (maximumf h (broadcastInDim S100000x32 ![] bcast_S_S100000x32 (constant S_ .f32 0x00000000#32)))
          (broadcastInDim S100000x32 ![0, 1] bcast_S100000x1_S100000x32_0_1 (broadcastInDim S100000x1 ![0] bcast_S100000_S100000x1_0
            (maximumf (broadcastInDim S100000 ![] bcast_S_S100000 (constant S_ .f32 0xFF800000#32))
              (Host.reduce FloatOps.maximumf (maximumf h (broadcastInDim S100000x32 ![] bcast_S_S100000x32 (constant S_ .f32 0x00000000#32)))
                (constant S_ .f32 0xFF800000#32) reducesTo_S100000x32_S100000_d1 h_S_))))))
        (constant S_ .f32 0x00000000#32) reducesTo_S100000x32_S100000_d1 h_S_))))

/-- The last stage is `hostTail` of the pre-activation's stage. -/
theorem tail_eq (x0 : (⟨S100000x128, .f32⟩ : BufTy).Contents (Elt F)) (x1 : (⟨S2x625000, .i32⟩ : BufTy).Contents (Elt F)) (x2 : (⟨S32x128, .f32⟩ : BufTy).Contents (Elt F))
    (x3 : (⟨S32, .f32⟩ : BufTy).Contents (Elt F)) (x4 : (⟨S32x128, .f32⟩ : BufTy).Contents (Elt F)) :
    hostTail (val_main_v30 (F := F) x0 x1 x2 x3 x4) = val_main_v32 (F := F) x0 x1 x2 x3 x4 := rfl

set_option maxRecDepth 8192 in
set_option maxHeartbeats 2000000 in
/-- After the first stretch the pre-activation's buffer holds its stage of the five arguments. -/
theorem pre_stage (m : (ℓ : Loc nD τ sig) → Buf (Elt F) ℓ) (c : Dev nD) :
    after opsPre (launchContents m c) (Proc.devRef .tc main_v30) = val_main_v30 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  after_results_simp <;> rfl

set_option maxRecDepth 8192 in
set_option maxHeartbeats 2000000 in
/-- After the second stretch, from any contents, the result's buffer holds `hostTail` of the pre-activation's buffer. -/
theorem tail_stage (W : Valuation τ sig (Elt F)) :
    after opsTail W (Proc.devRef .tc main_v32) = hostTail (F := F) (W (Proc.devRef .tc main_v30)) := by
  after_results_simp
  -- the row maxima's buffer holds what was put there: the transport of its contents to the buffer's own type and back
  -- is the identity, said once so that the two sides meet at the same maxima
  have h0 : ∀ w : (⟨S100000, .f32⟩ : BufTy).Contents (Elt F),
      (TRef.of (T := ⟨S100000, .f32⟩) main_call1_v0 : TRef sig ⟨S100000, .f32⟩).ofBuf
        ((TRef.of (T := ⟨S100000, .f32⟩) main_call1_v0 : TRef sig ⟨S100000, .f32⟩).toBuf w) = w := fun _ => rfl
  simp only [h0]
  rfl

/-- After the whole line the result's buffer holds the last stage of the five arguments. -/
theorem result_eq (m : (ℓ : Loc nD τ sig) → Buf (Elt F) ℓ) (c : Dev nD) :
    after ops (launchContents m c) (Proc.devRef .tc main_v32) = val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [ops_split, after_append, tail_stage, pre_stage, tail_eq]

set_option maxRecDepth 8192 in
set_option maxHeartbeats 2000000 in
/-- On every device, for any float values, from any memory with zero counters: every weakly fair execution of
    @main terminates with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v32) = val_main_v32 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v32).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.RefValue.lean ====
/-
  What the reference computes, read at one element. Its last stage at `(n, j)` is the rectified log-softmax, at class
  `j`, of node `n`'s pre-activation in the aggregate-then-project arrangement: the source rows of the edges landing on
  `n` summed feature by feature, each feature divided by the clamped in-degree, the mean projected by the first weight
  matrix; plus the bias; plus the node's own row projected by the second weight matrix.

  How it is read. Every stage is read at one index from its operands at an index, from the arguments up. The integer
  stages give the gather's row number for edge `e` (the source word, wrapped once when negative) and the scatters'
  row number (the destination word). The gather reads the source node's feature row; the first scatter, from zeros,
  sums feature `k` of those rows over the edges landing on `n`; the second, from zeros, sums one `1` per such edge.
  The quotient by the count raised to at least `1` is the mean; the two contractions over the 128 features, the bias
  and the two additions are the pre-activation. The maximum reduce over the 32 classes from minus infinity is the fold
  of `max` from the least element, and the maximum with minus infinity once more changes nothing; the float sum from
  zero is the plain sum. What is left is the rectified row minus its maximum, minus the logarithm of the sum of the
  exponentials of those differences.
-/
import proofs.«423130_j60086592471684_4_alg».proof.Proof.RefRead
import proofs.«423130_j60086592471684_4_alg».proof.Proof.Spec
import proofs.«423130_j60086592471684_4_alg».proof.Proof.LibScatterGather
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.ReadP
open Idealize.ShloMosaic Idealize.ShloMosaic.ValueIdx Idealize.ShloMosaic.ScatterGather

section IntChain
variable (x1 : (⟨S2x625000, .i32⟩ : BufTy).Contents (Elt Ideal)) (e : Fin 625000)

/-- Row 0 of the edge table at column `e`, reached through the slice, the reshape and the broadcast to a column. -/
theorem idx_src (e : Fin 625000) :
    idx_main_v0 (idx_main_v1 (idx_main_v9 (ix2 e (0 : Fin 1)))) = ix2 (0 : Fin 2) e :=
  funext fun a => Fin.ext (by
    match a with
    | ⟨0, _⟩ => rfl
    | ⟨1, _⟩ => exact Nat.mod_eq_of_lt e.isLt)

/-- Row 1 of the edge table at column `e`, reached the same way. -/
theorem idx_dst12 (e : Fin 625000) :
    idx_main_v2 (idx_main_v3 (idx_main_v12 (ix2 e (0 : Fin 1)))) = ix2 (1 : Fin 2) e :=
  funext fun a => Fin.ext (by
    match a with
    | ⟨0, _⟩ => rfl
    | ⟨1, _⟩ => exact Nat.mod_eq_of_lt e.isLt)

/-- Row 1 of the edge table at column `e`, for the second scatter's copy of the same broadcast. -/
theorem idx_dst16 (e : Fin 625000) :
    idx_main_v2 (idx_main_v3 (idx_main_v16 (ix2 e (0 : Fin 1)))) = ix2 (1 : Fin 2) e :=
  funext fun a => Fin.ext (by
    match a with
    | ⟨0, _⟩ => rfl
    | ⟨1, _⟩ => exact Nat.mod_eq_of_lt e.isLt)

/-- The gather's row number for edge `e` is the edge's source word, wrapped once when negative. -/
theorem v9_at : val_main_v9 (F := Ideal) x1 (ix2 e (0 : Fin 1)) = Cert.MeanAgg.srcWord x1 e := by
  simp only [val_main_v9_apply, val_main_v8_apply, val_main_v5_apply, val_main_v7_apply, val_main_v4_apply,
    val_main_v6_apply, val_main_c_apply, val_main_c_0_apply, val_main_v1_apply, val_main_v0_apply, idx_src]
  rfl

/-- The first scatter's row number for edge `e` is the edge's destination word. -/
theorem v12_at : val_main_v12 (F := Ideal) x1 (ix2 e (0 : Fin 1)) = x1 (ix2 (1 : Fin 2) e) := by
  simp only [val_main_v12_apply, val_main_v3_apply, val_main_v2_apply, idx_dst12]

/-- The second scatter's position for edge `e` is the edge's destination word. -/
theorem v16_at : val_main_v16 (F := Ideal) x1 (ix2 e (0 : Fin 1)) = x1 (ix2 (1 : Fin 2) e) := by
  simp only [val_main_v16_apply, val_main_v3_apply, val_main_v2_apply, idx_dst16]

end IntChain

section Aggregate
variable (x0 : (⟨S100000x128, .f32⟩ : BufTy).Contents (Elt Ideal)) (x1 : (⟨S2x625000, .i32⟩ : BufTy).Contents (Elt Ideal))

/-- The gathered row of edge `e` is the feature row of the edge's source node. -/
theorem v10_at (e : Fin 625000) (k : Fin 128) :
    val_main_v10 (F := Ideal) x0 x1 (ix2 e k) = x0 (ix2 (Cert.MeanAgg.srcRow x1 e) k) := by
  unfold val_main_v10
  have h := gather_rows_apply (N := 100000) (C := 128) (E := 625000) (by omega)
    gather_S100000x128_S625000x1_S625000x128_1_0_n_n_0_1_1128_wf x0 (val_main_v9 (F := Ideal) x1) e k
  refine h.trans (congrArg (fun r : Fin 100000 => x0 (ix2 r k)) (Fin.ext ?_))
  show min (val_main_v9 (F := Ideal) x1 (ix2 e (0 : Fin 1))).toInt.toNat (100000 - 1)
    = min (Cert.MeanAgg.srcWord x1 e).toInt.toNat 99999
  rw [v9_at]

/-- At the ideal values the host's accumulating scatter is the exact sum. -/
theorem hostScatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The first scatter at `(n, k)`: feature `k` of the source rows summed over the edges landing on `n`. -/
theorem v13_at (n : Fin 100000) (k : Fin 128) :
    val_main_v13 (F := Ideal) x0 x1 (ix2 n k)
      = ∑ e ∈ Cert.MeanAgg.lands x1 n, (x0 (ix2 (Cert.MeanAgg.srcRow x1 e) k) : EReal) := by
  have hfn : val_main_v13 (F := Ideal) x0 x1
      = Host.scatterAdd (F := Ideal) (φ := .f32) scatter_S100000x128_S625000x1_S625000x128_1_0_0_1
        (val_main_v11 (F := Ideal)) (val_main_v12 (F := Ideal) x1) (val_main_v10 (F := Ideal) x0 x1) := rfl
  rw [hfn, hostScatterAdd_ideal]
  refine (scatterAdd_rows_apply (N := 100000) (C := 128) (E := 625000)
    scatter_S100000x128_S625000x1_S625000x128_1_0_0_1_wf (val_main_v11 (F := Ideal)) (val_main_v12 (F := Ideal) x1)
    (val_main_v10 (F := Ideal) x0 x1) n k).trans ?_
  unfold Cert.MeanAgg.lands
  simp only [v12_at, v10_at, val_main_v11_apply, val_main_cst_apply, Ideal.ofBits_def, Ideal.ofBits_zero_f32,
    zero_add]

/-- The second scatter at `n`: one `1` per edge landing on `n`. -/
theorem v17_at (n : Fin 100000) :
    val_main_v17 (F := Ideal) x1 (ix1 n) = ∑ _e ∈ Cert.MeanAgg.lands x1 n, (1 : EReal) := by
  have hfn : val_main_v17 (F := Ideal) x1
      = Host.scatterAdd (F := Ideal) (φ := .f32) scatter_S100000_S625000x1_S625000_n_0_0_1
        (val_main_v15 (F := Ideal)) (val_main_v16 (F := Ideal) x1) (val_main_v14 (F := Ideal)) := rfl
  rw [hfn, hostScatterAdd_ideal]
  refine (scatterAdd_vec_apply (N := 100000) (E := 625000)
    scatter_S100000_S625000x1_S625000_n_0_0_1_wf (val_main_v15 (F := Ideal)) (val_main_v16 (F := Ideal) x1)
    (val_main_v14 (F := Ideal)) n).trans ?_
  unfold Cert.MeanAgg.lands
  simp only [v16_at, val_main_v15_apply, val_main_cst_2_apply, val_main_v14_apply, val_main_cst_1_apply,
    Ideal.ofBits_def, Ideal.ofBits_zero_f32, Cert.MeanAgg.ofBits_one_f32, zero_add]

end Aggregate

section Pre
variable (x0 : (⟨S100000x128, .f32⟩ : BufTy).Contents (Elt Ideal)) (x1 : (⟨S2x625000, .i32⟩ : BufTy).Contents (Elt Ideal))
  (x2 : (⟨S32x128, .f32⟩ : BufTy).Contents (Elt Ideal)) (x3 : (⟨S32, .f32⟩ : BufTy).Contents (Elt Ideal))
  (x4 : (⟨S32x128, .f32⟩ : BufTy).Contents (Elt Ideal))

/-- Node `n`'s pre-activation at class `c`, the specification's function of the five arguments' entries. -/
abbrev preAt (n : Fin 100000) (c : Fin 32) : EReal :=
  Cert.MeanAgg.preR (fun (n' : Fin 100000) (k : Fin 128) => (x0 (ix2 n' k) : EReal))
    (fun (c : Fin 32) (k : Fin 128) => (x2 (ix2 c k) : EReal)) (fun (c : Fin 32) (k : Fin 128) => (x4 (ix2 c k) : EReal))
    (fun c : Fin 32 => (x3 (ix1 c) : EReal)) (Cert.MeanAgg.srcRow x1) (Cert.MeanAgg.lands x1) n c

/-- The divisor is broadcast from node `n`'s clamped in-degree. -/
theorem idx_deg (n : Fin 100000) (k : Fin 128) : idx_main_v20 (idx_main_v21 (ix2 n k)) = ix1 n :=
  funext fun a => Fin.ext (by match a with | ⟨0, _⟩ => rfl)

/-- The divisor at `(n, k)`: the number of edges landing on `n`, raised to at least `1`. -/
theorem v21_at (n : Fin 100000) (k : Fin 128) :
    val_main_v21 (F := Ideal) x1 (ix2 n k) = max (∑ _e ∈ Cert.MeanAgg.lands x1 n, (1 : EReal)) 1 := by
  rw [val_main_v21_apply, val_main_v20_apply, idx_deg, val_main_v19_apply, v17_at, val_main_v18_apply,
    val_main_cst_3_apply, Ideal.maximumf_def, Ideal.ofBits_def, Cert.MeanAgg.ofBits_one_f32]

/-- The mean at `(n, k)`: the summed feature divided by the clamped in-degree. -/
theorem v22_at (n : Fin 100000) (k : Fin 128) :
    val_main_v22 (F := Ideal) x0 x1 (ix2 n k)
      = Ideal.div (∑ e ∈ Cert.MeanAgg.lands x1 n, (x0 (ix2 (Cert.MeanAgg.srcRow x1 e) k) : EReal))
          (max (∑ _e ∈ Cert.MeanAgg.lands x1 n, (1 : EReal)) 1) := by
  rw [val_main_v22_apply, Ideal.hostDivf_def, v13_at, v21_at]

/-- The first contraction at `(n, c)` reads the mean at `(n, k)` … -/
theorem lidx24 (n : Fin 100000) (c : Fin 32) (k : Fin 128) : lidx_main_v24 (ix2 n c) k = ix2 n k :=
  funext fun a => Fin.ext (by match a with | ⟨0, _⟩ => rfl | ⟨1, _⟩ => rfl)
/-- … and, through the transpose, the first weight matrix at `(c, k)`. -/
theorem ridx24 (n : Fin 100000) (c : Fin 32) (k : Fin 128) : idx_main_v23 (ridx_main_v24 (ix2 n c) k) = ix2 c k :=
  funext fun a => Fin.ext (by match a with | ⟨0, _⟩ => rfl | ⟨1, _⟩ => rfl)
/-- The second contraction at `(n, c)` reads the features at `(n, k)` … -/
theorem lidx29 (n : Fin 100000) (c : Fin 32) (k : Fin 128) : lidx_main_v29 (ix2 n c) k = ix2 n k :=
  funext fun a => Fin.ext (by match a with | ⟨0, _⟩ => rfl | ⟨1, _⟩ => rfl)
/-- … and, through the transpose, the second weight matrix at `(c, k)`. -/
theorem ridx29 (n : Fin 100000) (c : Fin 32) (k : Fin 128) : idx_main_v28 (ridx_main_v29 (ix2 n c) k) = ix2 c k :=
  funext fun a => Fin.ext (by match a with | ⟨0, _⟩ => rfl | ⟨1, _⟩ => rfl)
/-- The bias at `(n, c)` is read at `c`. -/
theorem idx_bias (n : Fin 100000) (c : Fin 32) : idx_main_v25 (idx_main_v26 (ix2 n c)) = ix1 c :=
  funext fun a => Fin.ext (by match a with | ⟨0, _⟩ => rfl)

/-- The mean projected by the first weight matrix, at `(n, c)`. -/
theorem v24_at (n : Fin 100000) (c : Fin 32) :
    val_main_v24 (F := Ideal) x0 x1 x2 (ix2 n c)
      = ∑ k : Fin 128, Ideal.div (∑ e ∈ Cert.MeanAgg.lands x1 n, (x0 (ix2 (Cert.MeanAgg.srcRow x1 e) k) : EReal))
          (max (∑ _e ∈ Cert.MeanAgg.lands x1 n, (1 : EReal)) 1) * (x2 (ix2 c k) : EReal) := by
  rw [val_main_v24_apply]
  refine Finset.sum_congr rfl fun k _ => ?_
  rw [lidx24, val_main_v23_apply, ridx24, v22_at]

/-- The node's own row projected by the second weight matrix, at `(n, c)`. -/
theorem v29_at (n : Fin 100000) (c : Fin 32) :
    val_main_v29 (F := Ideal) x0 x4 (ix2 n c) = ∑ k : Fin 128, (x0 (ix2 n k) : EReal) * (x4 (ix2 c k) : EReal) := by
  rw [val_main_v29_apply]
  refine Finset.sum_congr rfl fun k _ => ?_
  rw [lidx29, val_main_v28_apply, ridx29]

/-- The bias, broadcast over the nodes. -/
theorem v26_at (n : Fin 100000) (c : Fin 32) : val_main_v26 (F := Ideal) x3 (ix2 n c) = x3 (ix1 c) := by
  rw [val_main_v26_apply, val_main_v25_apply, idx_bias]

/-- The pre-activation at `(n, c)`: projected mean, plus bias, plus the node's own projection. -/
theorem v30_at (n : Fin 100000) (c : Fin 32) :
    val_main_v30 (F := Ideal) x0 x1 x2 x3 x4 (ix2 n c) = preAt x0 x1 x2 x3 x4 n c := by
  rw [val_main_v30_apply, val_main_v27_apply, Ideal.addf_def, Ideal.addf_def, v24_at, v26_at, v29_at]
  rfl

end Pre

section Tail
variable (x0 : (⟨S100000x128, .f32⟩ : BufTy).Contents (Elt Ideal)) (x1 : (⟨S2x625000, .i32⟩ : BufTy).Contents (Elt Ideal))
  (x2 : (⟨S32x128, .f32⟩ : BufTy).Contents (Elt Ideal)) (x3 : (⟨S32, .f32⟩ : BufTy).Contents (Elt Ideal))
  (x4 : (⟨S32x128, .f32⟩ : BufTy).Contents (Elt Ideal))

/-- The rectified pre-activation at `(n, c)`. -/
theorem v31_at (n : Fin 100000) (c : Fin 32) :
    val_main_v31 (F := Ideal) x0 x1 x2 x3 x4 (ix2 n c) = max (preAt x0 x1 x2 x3 x4 n c) 0 := by
  rw [val_main_v31_apply, Ideal.maximumf_def, v30_at, val_main_call0_v0_apply, val_main_call0_cst_apply,
    Ideal.ofBits_def, Ideal.ofBits_zero_f32]

/-- Row `n` of the reduced index with class `c` put back on the reduced axis is `(n, c)`. -/
theorem lift_at (h : S100000x32.Reduces [1] S100000) (n : Fin 100000) (c : Fin 32) :
    h.lift (ix1 n) c = ix2 n c :=
  funext fun a => Fin.ext (by match a with | ⟨0, _⟩ => rfl | ⟨1, _⟩ => rfl)

/-- A function of the full index, read along row `n` of the reduced axis at class `c`, is the function at `(n, c)`. -/
theorem comp_lift_apply {α : Type} (f : S100000x32.Idx → α) (h : S100000x32.Reduces [1] S100000) (n : Fin 100000)
    (c : Fin 32) : (f ∘ h.lift (ix1 n)) c = f (ix2 n c) :=
  congrArg f (lift_at h n c)

/-- At the ideal values a fold of the float maximum is the fold of the extended reals' maximum. -/
theorem fold_maximumf {ι : Type} (s : Finset ι) (b : EReal) (f : ι → EReal) :
    s.fold (FloatOps.maximumf (F := Ideal) (φ := .f32)) b f = s.fold max b f := rfl

/-- The row maximum of the rectified pre-activations of node `n`, as the specification folds it. -/
abbrev rowMaxAt (n : Fin 100000) : EReal :=
  (Finset.univ : Finset (Fin 32)).fold max ⊥ (fun c' => max (preAt x0 x1 x2 x3 x4 n c') 0)

/-- The maximum reduce over the class axis, from the word of minus infinity, at node `n`: the row maximum. -/
theorem call1_v0_at (n : Fin 100000) :
    val_main_call1_v0 (F := Ideal) x0 x1 x2 x3 x4 (ix1 n) = rowMaxAt x0 x1 x2 x3 x4 n := by
  have hR : S100000x32.Reduces [1] S100000 := by decide
  have hfn : val_main_call1_v0 (F := Ideal) x0 x1 x2 x3 x4
      = Host.reduce (FloatOps.maximumf (F := Ideal) (φ := .f32)) (val_main_v31 (F := Ideal) x0 x1 x2 x3 x4)
          (val_main_call1_cst (F := Ideal)) reducesTo_S100000x32_S100000_d1 h_S_ := rfl
  rw [hfn, Host.reduce_eq_fold_single (FloatOps.maximumf (F := Ideal) (φ := .f32)) _ _
    reducesTo_S100000x32_S100000_d1 hR h_S_ (ix1 n)]
  have hf : (val_main_v31 (F := Ideal) x0 x1 x2 x3 x4 ∘ hR.lift (ix1 n))
      = fun c' : Fin 32 => max (preAt x0 x1 x2 x3 x4 n c') 0 :=
    funext fun (c' : Fin 32) => by rw [comp_lift_apply, v31_at]
  rw [hf, val_main_call1_cst_apply, Ideal.ofBits_def, Cert.MeanAgg.ofBits_neg_inf_f32]
  exact fold_maximumf _ _ _

end Tail

section Softmax
variable (x0 : (⟨S100000x128, .f32⟩ : BufTy).Contents (Elt Ideal)) (x1 : (⟨S2x625000, .i32⟩ : BufTy).Contents (Elt Ideal))
  (x2 : (⟨S32x128, .f32⟩ : BufTy).Contents (Elt Ideal)) (x3 : (⟨S32, .f32⟩ : BufTy).Contents (Elt Ideal))
  (x4 : (⟨S32x128, .f32⟩ : BufTy).Contents (Elt Ideal))

/-- Taking the maximum with minus infinity once more leaves the row maximum. -/
theorem call1_v2_at (n : Fin 100000) :
    val_main_call1_v2 (F := Ideal) x0 x1 x2 x3 x4 (ix1 n) = rowMaxAt x0 x1 x2 x3 x4 n := by
  rw [val_main_call1_v2_apply, Ideal.maximumf_def, call1_v0_at, val_main_call1_v1_apply, val_main_call1_cst_0_apply,
    Ideal.ofBits_def, Cert.MeanAgg.ofBits_neg_inf_f32]
  exact max_eq_right bot_le

/-- The row maximum broadcast to `(n, c)` is read at `n`. -/
theorem idx_rowmax (n : Fin 100000) (c : Fin 32) : idx_main_call1_v3 (idx_main_call1_v4 (ix2 n c)) = ix1 n :=
  funext fun a => Fin.ext (by match a with | ⟨0, _⟩ => rfl)
/-- The sum over the classes at node `n` reads the exponentials at `(n, c)`. -/
theorem idx_exp (n : Fin 100000) (c : Fin 32) : idx_main_call1_v7 (ix1 n) c = ix2 n c :=
  funext fun a => Fin.ext (by match a with | ⟨0, _⟩ => rfl | ⟨1, _⟩ => rfl)
/-- The logarithm broadcast to `(n, c)` is read at `n`. -/
theorem idx_lse (n : Fin 100000) (c : Fin 32) : idx_main_call1_v8 (idx_main_call1_v10 (ix2 n c)) = ix1 n :=
  funext fun a => Fin.ext (by match a with | ⟨0, _⟩ => rfl)

/-- The rectified pre-activation minus its row maximum, at `(n, c)`. -/
theorem call1_v5_at (n : Fin 100000) (c : Fin 32) :
    val_main_call1_v5 (F := Ideal) x0 x1 x2 x3 x4 (ix2 n c)
      = max (preAt x0 x1 x2 x3 x4 n c) 0 - rowMaxAt x0 x1 x2 x3 x4 n := by
  rw [val_main_call1_v5_apply, Ideal.subf_def, v31_at, val_main_call1_v4_apply, val_main_call1_v3_apply, idx_rowmax,
    call1_v2_at]

/-- The sum over the classes of the exponentials of those differences, at node `n`. -/
theorem call1_v7_at (n : Fin 100000) :
    val_main_call1_v7 (F := Ideal) x0 x1 x2 x3 x4 (ix1 n)
      = ∑ c' : Fin 32, Ideal.exp (max (preAt x0 x1 x2 x3 x4 n c') 0 - rowMaxAt x0 x1 x2 x3 x4 n) := by
  rw [val_main_call1_v7_apply, val_main_call1_cst_1_apply, Ideal.ofBits_def, Ideal.ofBits_zero_f32, zero_add]
  refine Finset.sum_congr rfl fun c' _ => ?_
  rw [idx_exp, val_main_call1_v6_apply, Ideal.hostUnary_exp_def, call1_v5_at]

end Softmax

/-- The reference's result at `(n, j)`, as the specification's function of the five arguments' entries. -/
theorem ref_value (x0 : (⟨S100000x128, .f32⟩ : BufTy).Contents (Elt Ideal)) (x1 : (⟨S2x625000, .i32⟩ : BufTy).Contents (Elt Ideal))
    (x2 : (⟨S32x128, .f32⟩ : BufTy).Contents (Elt Ideal)) (x3 : (⟨S32, .f32⟩ : BufTy).Contents (Elt Ideal))
    (x4 : (⟨S32x128, .f32⟩ : BufTy).Contents (Elt Ideal)) (n : Fin 100000) (j : Fin 32) :
    val_main_v32 (F := Ideal) x0 x1 x2 x3 x4 (ix2 n j)
      = Cert.MeanAgg.tail (Cert.MeanAgg.preR (fun (n' : Fin 100000) (k : Fin 128) => (x0 (ix2 n' k) : EReal))
          (fun (c : Fin 32) (k : Fin 128) => (x2 (ix2 c k) : EReal)) (fun (c : Fin 32) (k : Fin 128) => (x4 (ix2 c k) : EReal))
          (fun c : Fin 32 => (x3 (ix1 c) : EReal)) (Cert.MeanAgg.srcRow x1) (Cert.MeanAgg.lands x1) n) j := by
  rw [val_main_v32_apply, Ideal.subf_def, call1_v5_at, val_main_call1_v10_apply, val_main_call1_v9_apply,
    Ideal.hostUnary_log_def, val_main_call1_v8_apply, idx_lse, call1_v7_at]
  rfl

end Cert.ReferenceIdeal.RefValue

end
-- ==== Proof.Finite.lean ====
/-
  What the precondition gives: where every float input is finite, every entry of the feature matrix and of the
  aggregating weight matrix is a real number (the two arrays whose entries meet a division in one program and a sum of
  products in the other).
-/
import proofs.«423130_j60086592471684_4_alg».proof.Pre_finite_inputs
import proofs.«423130_j60086592471684_4_alg».proof.Proof.Spec
import Idealize.ShloMosaic.Lib.ReduceAll
import Idealize.ShloMosaic.PureOps.Ideal.Laws

noncomputable section

namespace Cert.MeanAgg

open Idealize.ShloMosaic Idealize.ShloMosaic.ValueIdx Cert.Pre_finite_inputs

/-- The scalar shape has exactly one index: a function out of the empty set of axes. -/
instance : Subsingleton S_.Idx := ⟨fun a b => funext fun d => d.elim0⟩

/-- An ordered "less than" of two extended reals that answers 1 says the first is below the second. -/
theorem lt_of_cmp_olt (a b : EReal) (e : Ideal.cmp .olt a b = 1#1) : a < b := by
  unfold Ideal.cmp at e
  by_contra hn
  simp [hn] at e

/-- If the conjunction over all indices of "|x i| < +inf" is 1, every entry of `x` is a real: each element's comparison
    is 1, the absolute value is `max a (-a)`, the bound is ⊤, and an extended real whose absolute value is below ⊤ is
    a real. -/
theorem real_of_all_finite {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
        (cmpf .olt (Host.absf x) (broadcastInDim s ![] hb (constant (F := Ideal) S_ .f32 0x7F800000#32)))
        (constantI S_ 1 1#1) hr hu ix0 = 1#1) (i : s.Idx) : ∃ r : ℝ, x i = (r : EReal) := by
  have ei := Host.reduce_andi_all _ _ hr hu ix0 e i
  exact real_of_abs_lt (x i) (lt_of_cmp_olt _ _ ei)

/-- The precondition, all ones, makes every entry of the features `x0` and of the aggregating weights `x2` a real. -/
theorem real_of_pre [Cert.Pre_finite_inputs.Facts] (x0 : FVec Ideal S100000x128 .f32) (x1 : IVec S2x625000 32)
    (x2 : FVec Ideal S32x128 .f32) (x3 : FVec Ideal S32 .f32) (x4 : FVec Ideal S32x128 .f32)
    (h : Cert.Pre_finite_inputs.fn (F := Ideal) x0 x1 x2 x3 x4 = fun _ => 1#1) :
    (∀ i, ∃ r : ℝ, x0 i = (r : EReal)) ∧ (∀ i, ∃ r : ℝ, x2 i = (r : EReal)) := by
  -- the function's one result is the conjunction ((all x0 ∧ all x2) ∧ all x3) ∧ all x4; read its first two leaves
  have h0 := congrFun h ix0
  dsimp only [Cert.Pre_finite_inputs.fn, Cert.Pre_finite_inputs.fn_part1, andi] at h0
  obtain ⟨⟨⟨h3, h7⟩, _⟩, _⟩ : ((_ ∧ _) ∧ _) ∧ _ := by
    simpa only [IntOp.andi_eq_one] using h0
  exact ⟨fun i => real_of_all_finite x0 _ _ _ h3 i, fun i => real_of_all_finite x2 _ _ _ h7 i⟩

end Cert.MeanAgg

end
-- ==== Proof.lean ====
/-
  A mean-aggregating graph layer with a log-softmax head, computed two ways, and the proof that the two agree.

  The layer: for every node `n` of 100000 and class `j` of 32,
      h n j = (mean over the edges e landing on n of x (src e)) · W_l j  +  b j  +  x n · W_r j,
  the mean's divisor being the number of those edges clamped below by one, and the output is the log-softmax over the
  32 classes of the rectified row `max (h n ·) 0`.

  The reference aggregates the 128-wide feature rows, divides, and projects. The kernel projects all rows to 32 numbers
  first (a tiled matrix product, 2000 rows at a time), aggregates the projected rows on the host, and finishes in a
  second tiled pass that divides, adds the bias and the node's own projection, rectifies, and takes the row's
  log-softmax. Over the reals the two pre-activations are one number, because the dot product with `W_l j` and the
  division by a nonzero count are linear; over the extended reals that needs the features and `W_l` to be finite, which is
  the precondition. The tails are the same function of the pre-activation.

  The pieces: `Spec` states both arrangements and proves them equal on finite inputs; `LibScatterGather` reads the row
  gather and the accumulating scatter at one element; `RefRun` / `RefRead` / `RefValue` give the reference's run and its
  result at an index; `KernelRun`, `ProjectValue`, `CombineValue`, `KernelHost`, `KernelValue` give the kernel's run and
  its result at an index; `Finite` turns the precondition into "every entry is a real".
-/
import proofs.«423130_j60086592471684_4_alg».proof.Defs
import proofs.«423130_j60086592471684_4_alg».proof.Proof.Gen.Kernel
import proofs.«423130_j60086592471684_4_alg».proof.Proof.Gen.Kernel.Skeleton
import proofs.«423130_j60086592471684_4_alg».proof.Proof.Gen.Kernel.Launch
import proofs.«423130_j60086592471684_4_alg».proof.Proof.Gen.Kernel.Points
import proofs.«423130_j60086592471684_4_alg».proof.Proof.Gen.Kernel.Frame
import proofs.«423130_j60086592471684_4_alg».proof.Proof.Gen.KernelIdeal
import proofs.«423130_j60086592471684_4_alg».proof.Proof.Gen.KernelIdeal.Skeleton
import proofs.«423130_j60086592471684_4_alg».proof.Proof.Gen.KernelIdeal.Launch
import proofs.«423130_j60086592471684_4_alg».proof.Proof.Gen.KernelIdeal.Points
import proofs.«423130_j60086592471684_4_alg».proof.Proof.Gen.KernelIdeal.Frame
import proofs.«423130_j60086592471684_4_alg».proof.Proof.Gen.ReferenceIdeal
import proofs.«423130_j60086592471684_4_alg».proof.Proof.Gen.Pre_finite_inputs
import proofs.«423130_j60086592471684_4_alg».proof.Proof.KernelRun
import proofs.«423130_j60086592471684_4_alg».proof.Proof.KernelValue
import proofs.«423130_j60086592471684_4_alg».proof.Proof.RefRun
import proofs.«423130_j60086592471684_4_alg».proof.Proof.RefValue
import proofs.«423130_j60086592471684_4_alg».proof.Proof.Finite
import proofs.«423130_j60086592471684_4_alg».proof.Proof.Spec
import Idealize.ShloMosaic.Adequacy
import Idealize.ShloMosaic.Init

noncomputable section

namespace Cert.Proof

open Idealize.ShloMosaic Idealize.ShloMosaic.ValueIdx Idealize.SL.Sem

/-- The word-level kernel runs and leaves its arguments as launched: the generated frame. -/
theorem frame_kernel : Cert.frame_Kernel := fun m ρ _ => Cert.Kernel.Gen.frame m ρ

/-- The idealized kernel likewise. -/
theorem frame_kernelIdeal : Cert.frame_KernelIdeal := fun m ρ _ => Cert.KernelIdeal.Gen.frame m ρ

/-- The reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- On finite inputs both programs end with the same array: at `(n, j)` the kernel's result is the log-softmax head of the
    project-then-aggregate pre-activation, the reference's that of the aggregate-then-project one, and the two
    pre-activations are one number where the features and the aggregating weights are real. -/
theorem algebraic : Cert.algebraic_KernelIdeal_ReferenceIdeal := by
  intro m ρ m' ρ' hpre hagree
  refine ⟨fun c => Cert.KernelIdeal.Gen.W4 m ρ c (Proc.devRef .tc Cert.KernelIdeal.main_v23),
    Cert.KernelIdeal.GenRun.run_result m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2]
  obtain ⟨hx, hwl⟩ := Cert.MeanAgg.real_of_pre _ _ _ _ _ (hpre c)
  funext i
  obtain ⟨n, j, rfl⟩ : ∃ (n : Fin 100000) (j : Fin 32), i = ix2 n j := ⟨i 0, i 1, eq_ix2 i⟩
  rw [Cert.ReferenceIdeal.RefValue.ref_value]
  refine Eq.trans ?_ (Cert.KernelIdeal.KernelValue.kernel_value m ρ c n j).symm
  refine congrArg (fun h => Cert.MeanAgg.tail h j) (funext fun j' => ?_)
  exact Cert.MeanAgg.preR_eq_preK _ _ _ _ _ _ (fun n' k => hx (ix2 n' k)) (fun c' k => hwl (ix2 c' k)) n j'

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
